-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000000 : Shape := ⟨1, ![1000000]⟩
abbrev S256x16 : Shape := ⟨2, ![256, 16]⟩
abbrev S16 : Shape := ⟨1, ![16]⟩
abbrev S16x256 : Shape := ⟨2, ![16, 256]⟩
abbrev S256 : Shape := ⟨1, ![256]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_arg5 : FVec F S256 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg1 main_v24
  let main_c_9 : IVec S_ 1 := constantI S_ 1 1#1
  let main_v26 : IVec S_ 1 := (fun x v => Host.reduce IntOp.andi x v reducesTo_S1000000_S_d0 h_S_) main_v25 main_c_9
  let main_v27 : IVec S_ 1 := andi main_v23 main_v26
  let main_c_10 : IVec S_ 32 := constantI S_ 32 32#32
  let main_v28 : IVec S1000000 32 := broadcastInDim S1000000 ![] bcast_S_S1000000 main_c_10
  let main_v29 : IVec S1000000 1 := cmpi .slt main_arg1 main_v28
  let main_c_11 : IVec S_ 1 := constantI S_ 1 1#1
  let main_v30 : IVec S_ 1 := (fun x v => Host.reduce IntOp.andi x v reducesTo_S1000000_S_d0 h_S_) main_v29 main_c_11
  let main_v31 : IVec S_ 1 := andi main_v27 main_v30
  main_v31

def fn {F : FTy → Type} [FloatOps F] (main_arg0 : FVec F S1000000x256 .f32) (main_arg1 : IVec S1000000 32) (main_arg2 : FVec F S256x16 .f32) (main_arg3 : FVec F S16 .f32) (main_arg4 : FVec F S16x256 .f32) (main_arg5 : FVec F S256 .f32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x256 .f32 := Host.absf main_arg4
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg1 main_arg5 main_v13 main_v16
-- ==== Kernel.lean ====
abbrev S1000000x256 : Shape := ⟨2, ![1000000, 256]⟩
abbrev S1000000 : Shape := ⟨1, ![1000000]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1000000x1 : Shape := ⟨2, ![1000000, 1]⟩
abbrev S2x128x256 : Shape := ⟨3, ![2, 128, 256]⟩
abbrev S5000x256 : Shape := ⟨2, ![5000, 256]⟩
abbrev S5000x1 : Shape := ⟨2, ![5000, 1]⟩
abbrev S1x128x256 : Shape := ⟨3, ![1, 128, 256]⟩
abbrev S128x256 : Shape := ⟨2, ![128, 256]⟩
abbrev S5000x128 : Shape := ⟨2, ![5000, 128]⟩
abbrev S32x256 : Shape := ⟨2, ![32, 256]⟩
abbrev S_ : Shape := ⟨0, ![]⟩
abbrev S32 : Shape := ⟨1, ![32]⟩
abbrev S32x1 : Shape := ⟨2, ![32, 1]⟩
abbrev S32x16 : Shape := ⟨2, ![32, 16]⟩
abbrev S1x16 : Shape := ⟨2, ![1, 16]⟩
abbrev S1x256 : Shape := ⟨2, ![1, 256]⟩
abbrev S1 : Shape := ⟨1, ![1]⟩

abbrev nBuf : Space → Nat
  | .hbm => 52
  | .vmem => 14
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x16, .f32⟩
  | .hbm, ⟨3, _⟩ => ⟨S16, .f32⟩
  | .hbm, ⟨4, _⟩ => ⟨S16x256, .f32⟩
  | .hbm, ⟨5, _⟩ => ⟨S256, .f32⟩
  | .hbm, ⟨6, _⟩ => ⟨S1000000x1, .i32⟩
  | .hbm, ⟨7, _⟩ => ⟨S2x128x256, .f32⟩
  | .hbm, ⟨8, _⟩ => ⟨S1x128x256, .f32⟩
  | .hbm, ⟨9, _⟩ => ⟨S128x256, .f32⟩
  | .hbm, ⟨10, _⟩ => ⟨S1x128x256, .f32⟩
  | .hbm, ⟨11, _⟩ => ⟨S128x256, .f32⟩
  | .hbm, ⟨12, _⟩ => ⟨S128x256, .f32⟩
  | .hbm, ⟨13, _⟩ => ⟨S32x256, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S32, .f32⟩
  | .hbm, ⟨18, _⟩ => ⟨S1000000x1, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S32x256, .f32⟩
  | .hbm, ⟨25, _⟩ => ⟨S32x256, .f32⟩
  | .hbm, ⟨26, _⟩ => ⟨S32x16, .f32⟩
  | .hbm, ⟨27, _⟩ => ⟨S1x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x256, .f32⟩
  | .hbm, ⟨34, _⟩ => ⟨S1x256, .f32⟩
  | .hbm, ⟨35, _⟩ => ⟨S32x256, .f32⟩
  | .hbm, ⟨36, _⟩ => ⟨S32x256, .f32⟩
  | .hbm, ⟨37, _⟩ => ⟨S32x256, .f32⟩
  | .hbm, ⟨38, _⟩ => ⟨S32x256, .f32⟩
  | .hbm, ⟨39, _⟩ => ⟨S_, .f32⟩
  | .hbm, ⟨40, _⟩ => ⟨S32x256, .f32⟩
  | .hbm, ⟨41, _⟩ => ⟨S32x256, .f32⟩
  | .hbm, ⟨42, _⟩ => ⟨S_, .f32⟩
  | .hbm, ⟨43, _⟩ => ⟨S32x256, .f32⟩
  | .hbm, ⟨44, _⟩ => ⟨S32x256, .f32⟩
  | .hbm, ⟨45, _⟩ => ⟨S_, .bf16⟩
  | .hbm, ⟨46, _⟩ => ⟨S128x256, .bf16⟩
  | .hbm, ⟨47, _⟩ => ⟨S32x256, .bf16⟩
  | .hbm, ⟨48, _⟩ => ⟨S_, .i32⟩
  | .hbm, ⟨49, _⟩ => ⟨S1, .i32⟩
  | .hbm, ⟨50, _⟩ => ⟨S128x256, .bf16⟩
  | .hbm, ⟨51, _⟩ => ⟨S1000000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .i32⟩
  | .local _ .vmem, ⟨3, _⟩ => ⟨S5000x1, .i32⟩
  | .local _ .vmem, ⟨4, _⟩ => ⟨S1x128x256, .f32⟩
  | .local _ .vmem, ⟨5, _⟩ => ⟨S1x128x256, .f32⟩
  | .local _ .vmem, ⟨6, _⟩ => ⟨S128x256, .f32⟩
  | .local _ .vmem, ⟨7, _⟩ => ⟨S5000x256, .f32⟩
  | .local _ .vmem, ⟨8, _⟩ => ⟨S5000x256, .f32⟩
  | .local _ .vmem, ⟨9, _⟩ => ⟨S5000x1, .i32⟩
  | .local _ .vmem, ⟨10, _⟩ => ⟨S5000x1, .i32⟩
  | .local _ .vmem, ⟨11, _⟩ => ⟨S128x256, .bf16⟩
  | .local _ .vmem, ⟨12, _⟩ => ⟨S5000x256, .f32⟩
  | .local _ .vmem, ⟨13, _⟩ => ⟨S5000x256, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v19 : BitVec 1 := Scalar.cmpi .eq arg1 c99_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000_S1000000x1 : S1000000.ShapeCasts S1000000x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  slices_S2x128x256_S1x128x256_0_0_0 : S2x128x256.Slices ![0, 0, 0] S1x128x256
  slices_S2x128x256_S1x128x256_1_0_0 : S2x128x256.Slices ![1, 0, 0] S1x128x256
  slices_S128x256_S32x256_0_0 : S128x256.Slices ![0, 0] S32x256
  bcast_S_S1000000 : S_.BroadcastsInDim S1000000 (![] : Fin 0 → Fin S1000000.rank)
  bcast_S_S32 : S_.BroadcastsInDim S32 (![] : Fin 0 → Fin S32.rank)
  bcast_S1000000_S1000000x1_0 : S1000000.BroadcastsInDim S1000000x1 (![0] : Fin 1 → Fin S1000000x1.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S_S128x256 : S_.BroadcastsInDim S128x256 (![] : Fin 0 → Fin S128x256.rank)
  bcast_S_S1 : S_.BroadcastsInDim S1 (![] : Fin 0 → Fin S1.rank)
  dot_S5000x128_S5000x256_S128x256_0_0_1_1_n_n_wf : DotDims.WF S5000x128 S5000x256 S128x256 [0] [0] [1] [1] [] []
  scatter_S32_S1000000x1_S1000000_n_0_0_1_wf : ScatterDims.WF S32 S1000000x1 S1000000 [] [0] [0] 1
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  scatter_S128x256_S1_S32x256_01_n_0_0_wf : ScatterDims.WF S128x256 S1 S32x256 [0, 1] [] [0] 0
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S1000000x256.size a
  hwx0_0 : ∀ i : grid0.Coords, EltTy.bits .f32 = 32 ∨ (Rect.block (s := S1000000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .i32 = 32 ∨ (Rect.block (s := S1000000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S1000000x256.size a
  hwx1_0 : ∀ i : grid1.Coords, EltTy.bits .f32 = 32 ∨ (Rect.block (s := S1000000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .i32 = 32 ∨ (Rect.block (s := S1000000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S1000000x256.size a
  hwx1_3 : ∀ i : grid1.Coords, EltTy.bits .f32 = 32 ∨ (Rect.block (s := S1000000x256) S5000x256.size (cc1_transform_3 i) (hinb1_3 i)).WholeWords (EltTy.packing .f32)

variable [Facts₀]

def dot_S5000x128_S5000x256_S128x256_0_0_1_1_n_n : DotDims S5000x128 S5000x256 S128x256 where
  lhsContracting := [0]
  rhsContracting := [0]
  lhsNonContracting := [1]
  rhsNonContracting := [1]
  lhsBatch := []
  rhsBatch := []
  wf := dot_S5000x128_S5000x256_S128x256_0_0_1_1_n_n_wf
def scatter_S32_S1000000x1_S1000000_n_0_0_1 : ScatterDims S32 S1000000x1 S1000000 where
  updateWindowDims := []
  insertedWindowDims := [0]
  scatterDimsToOperandDims := [0]
  indexVectorDim := 1
  wf := scatter_S32_S1000000x1_S1000000_n_0_0_1_wf
def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf
def scatter_S128x256_S1_S32x256_01_n_0_0 : ScatterDims S128x256 S1 S32x256 where
  updateWindowDims := [0, 1]
  insertedWindowDims := []
  scatterDimsToOperandDims := [0]
  indexVectorDim := 0
  wf := scatter_S128x256_S1_S32x256_01_n_0_0_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x256 : Shape := ⟨2, ![1000000, 256]⟩
abbrev S1000000 : Shape := ⟨1, ![1000000]⟩
abbrev S256x16 : Shape := ⟨2, ![256, 16]⟩
abbrev S16 : Shape := ⟨1, ![16]⟩
abbrev S16x256 : Shape := ⟨2, ![16, 256]⟩
abbrev S256 : Shape := ⟨1, ![256]⟩
abbrev S_ : Shape := ⟨0, ![]⟩
abbrev S32x256 : Shape := ⟨2, ![32, 256]⟩
abbrev S1000000x1 : Shape := ⟨2, ![1000000, 1]⟩
abbrev S32 : Shape := ⟨1, ![32]⟩
abbrev S32x1 : Shape := ⟨2, ![32, 1]⟩
abbrev S32x16 : Shape := ⟨2, ![32, 16]⟩
abbrev S1x16 : Shape := ⟨2, ![1, 16]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x16, .f32⟩
  | .hbm, ⟨3, _⟩ => ⟨S16, .f32⟩
  | .hbm, ⟨4, _⟩ => ⟨S16x256, .f32⟩
  | .hbm, ⟨5, _⟩ => ⟨S256, .f32⟩
  | .hbm, ⟨6, _⟩ => ⟨S_, .f32⟩
  | .hbm, ⟨7, _⟩ => ⟨S32x256, .f32⟩
  | .hbm, ⟨8, _⟩ => ⟨S1000000x1, .i32⟩
  | .hbm, ⟨9, _⟩ => ⟨S32x256, .f32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S32, .f32⟩
  | .hbm, ⟨14, _⟩ => ⟨S1000000x1, .i32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x256, .f32⟩
  | .hbm, ⟨21, _⟩ => ⟨S32x256, .f32⟩
  | .hbm, ⟨22, _⟩ => ⟨S32x16, .f32⟩
  | .hbm, ⟨23, _⟩ => ⟨S1x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x256, .f32⟩
  | .hbm, ⟨30, _⟩ => ⟨S1x256, .f32⟩
  | .hbm, ⟨31, _⟩ => ⟨S32x256, .f32⟩
  | .hbm, ⟨32, _⟩ => ⟨S32x256, .f32⟩
  | .hbm, ⟨33, _⟩ => ⟨S32x256, .f32⟩
  | .hbm, ⟨34, _⟩ => ⟨S32x256, .f32⟩
  | .hbm, ⟨35, _⟩ => ⟨S_, .f32⟩
  | .hbm, ⟨36, _⟩ => ⟨S32x256, .f32⟩
  | .hbm, ⟨37, _⟩ => ⟨S32x256, .f32⟩
  | .hbm, ⟨38, _⟩ => ⟨S_, .f32⟩
  | .hbm, ⟨39, _⟩ => ⟨S32x256, .f32⟩
  | .hbm, ⟨40, _⟩ => ⟨S32x256, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x256, .f32⟩
  | .hbm, ⟨50, _⟩ => ⟨S1000000x256, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S32x256 : S_.BroadcastsInDim S32x256 (![] : Fin 0 → Fin S32x256.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  scatter_S32x256_S1000000x1_S1000000x256_1_0_0_1_wf : ScatterDims.WF S32x256 S1000000x1 S1000000x256 [1] [0] [0] 1
  scatter_S32_S1000000x1_S1000000_n_0_0_1_wf : ScatterDims.WF S32 S1000000x1 S1000000 [] [0] [0] 1
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  gather_S32x256_S1000000x1_S1000000x256_1_0_n_n_0_1_1256_wf : GatherDims.WF S32x256 S1000000x1 S1000000x256 [1] [0] [] [0] [] 1 ![1, 256]

variable [Facts₀]

def scatter_S32x256_S1000000x1_S1000000x256_1_0_0_1 : ScatterDims S32x256 S1000000x1 S1000000x256 where
  updateWindowDims := [1]
  insertedWindowDims := [0]
  scatterDimsToOperandDims := [0]
  indexVectorDim := 1
  wf := scatter_S32x256_S1000000x1_S1000000x256_1_0_0_1_wf
def scatter_S32_S1000000x1_S1000000_n_0_0_1 : ScatterDims S32 S1000000x1 S1000000 where
  updateWindowDims := []
  insertedWindowDims := [0]
  scatterDimsToOperandDims := [0]
  indexVectorDim := 1
  wf := scatter_S32_S1000000x1_S1000000_n_0_0_1_wf
def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf
def gather_S32x256_S1000000x1_S1000000x256_1_0_n_n_0_1_1256 : GatherDims S32x256 S1000000x1 S1000000x256 where
  offsetDims := [1]
  collapsedSliceDims := [0]
  operandBatchingDims := []
  startIndicesBatchingDims := []
  startIndexMap := [0]
  indexVectorDim := 1
  sliceSizes := ![1, 256]
  wf := gather_S32x256_S1000000x1_S1000000x256_1_0_n_n_0_1_1256_wf

class Facts : Prop extends Facts₀ where

variable [Facts]
-- ==== Proof.FrKernel.R0Runs.lean ====
/-
  The pooling pass (the first of the two grid regions), what its case runs share.

  The grid is 2 x 100: coordinate 0 picks a half of the rows, coordinate 1 walks that half's 100 tiles of 5000 rows.
  The body resets its accumulator when coordinate 1 is 0, adds the tile's contribution at every point, and copies the
  accumulator into the output block when coordinate 1 is 99.  So a point is in one of three cases, decided by the
  point's number modulo 100: 0 (reset and add), 99 (add and copy out), anything else (add).  The output window is
  idle and not written back except at the points that copy out.
-/
import proofs.«421135_j50921132261525_3_alg».proof.Proof.Gen.Kernel.Launch
import proofs.«421135_j50921132261525_3_alg».proof.Proof.Gen.Kernel.Skeleton
import proofs.«421135_j50921132261525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the tile's rows at every point, for any proof data over `V` that leaves them in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the segment words' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions, decided over the grid -/

/-- "Coordinate 1 is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- "Coordinate 1 is 99": the accumulator is copied out. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x128x256 .f32 := (Memref.whole cc0_stg2_0 : Memref sig .tc .vmem S1x128x256 .f32).view
abbrev ms0_0 (t : Fin cfg0.N) : Memref sig .tc .vmem S5000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S128x256 .f32 := Memref.whole cc0_scratch0
abbrev VS0_0 : View sig .tc .vmem S128x256 .f32 := scM0_0.view

/-- The scoped buffers of the OTHER region (its seven staging buffers), each whole at some contents: this body never
    touches them; they ride along in the invariant. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant: the accumulator owned at some contents, the other region's buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Fr

end
-- ==== Proof.FrKernel.R0RunA.lean ====
/-
  The pooling pass at a point that resets the accumulator and adds the tile (point number ≡ 0 mod 100): the output window is idle.
-/
import proofs.«421135_j50921132261525_3_alg».proof.Proof.FrKernel.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_A (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) :
    Σ' (L2 : List (View.Piece (Elt F) S1x128x256 .f32)), { LS0 : List (View.Piece (Elt F) S128x256 .f32) //
      ∀ (xi2 : Vec F S1x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.R0RunB.lean ====
/-
  The pooling pass at a point that only adds the tile to the accumulator the point before left: the output window is idle.
-/
import proofs.«421135_j50921132261525_3_alg».proof.Proof.FrKernel.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_B (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) :
    Σ' (L2 : List (View.Piece (Elt F) S1x128x256 .f32)), { LS0 : List (View.Piece (Elt F) S128x256 .f32) //
      ∀ (xi2 : Vec F S1x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.R0RunC.lean ====
/-
  The pooling pass at a half's last tile (point number ≡ 99 mod 100): it adds the tile and copies the accumulator into the output block.
-/
import proofs.«421135_j50921132261525_3_alg».proof.Proof.FrKernel.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_C (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) :
    Σ' (L2 : List (View.Piece (Elt F) S1x128x256 .f32)), { LS0 : List (View.Piece (Elt F) S128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrKernel.R0Data.lean ====
/-
  The pooling pass: what the accumulator and the output buffer hold after each point, the region's invariant and proof
  data, and the body obligation.

  After point `n` the accumulator holds what the point's case leaves in it; in every case but the reset this is computed
  over what the point before left (`outsAt0`, by recursion on the point).  Between points the invariant owns the
  accumulator at exactly that value, next to the other region's buffers and the generator register, all untouched.
-/
import proofs.«421135_j50921132261525_3_alg».proof.Proof.FrKernel.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- This case stores nothing into the output (the window is idle there): a placeholder that nothing consults. -/
def out0_A_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) : Vec F S1x128x256 .f32 :=
  VO0_2.read (Elt F) (VO0_2.writes (Elt F) VO0_2.junk (kernelRun0_A c i arg2 harg2 arg3 harg3 arg4 harg4 arg5 harg5 hc0 hc1 x0 x1).1)

/-- The pieces stored into the accumulator tile it, so they cover it. -/
theorem scover0_A_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) (y : S128x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x256.size (by sl_kernel_rfl) y

/-- What this case leaves in the accumulator: its pieces read back. -/
def sout0_A_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) : Vec F S128x256 .f32 :=
  VS0_0.read (Elt F) (VS0_0.writes (Elt F) VS0_0.junk (kernelRun0_A c i arg2 harg2 arg3 harg3 arg4 harg4 arg5 harg5 hc0 hc1 x0 x1).2.1)

/-- This case stores nothing into the output (the window is idle there): a placeholder that nothing consults. -/
def out0_B_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) : Vec F S1x128x256 .f32 :=
  VO0_2.read (Elt F) (VO0_2.writes (Elt F) VO0_2.junk (kernelRun0_B c i arg2 harg2 arg3 harg3 arg4 harg4 arg5 harg5 hc0 hc1 x0 x1 xs0).1)

/-- The pieces stored into the accumulator tile it, so they cover it. -/
theorem scover0_B_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) (y : S128x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x256.size (by sl_kernel_rfl) y

/-- What this case leaves in the accumulator: its pieces read back. -/
def sout0_B_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) : Vec F S128x256 .f32 :=
  VS0_0.read (Elt F) (VS0_0.writes (Elt F) VS0_0.junk (kernelRun0_B c i arg2 harg2 arg3 harg3 arg4 harg4 arg5 harg5 hc0 hc1 x0 x1 xs0).2.1)

/-- The pieces stored into the output block tile it, so they cover it. -/
theorem cover0_C_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) (y : S1x128x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x256.size (by sl_kernel_rfl) y

/-- What this case leaves in the output's staging buffer: the copied accumulator, its pieces read back. -/
def out0_C_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) : Vec F S1x128x256 .f32 :=
  VO0_2.read (Elt F) (VO0_2.writes (Elt F) VO0_2.junk (kernelRun0_C c i arg2 harg2 arg3 harg3 arg4 harg4 arg5 harg5 hc0 hc1 x0 x1 xs0).1)

/-- The pieces stored into the accumulator tile it, so they cover it. -/
theorem scover0_C_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) (y : S128x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x256.size (by sl_kernel_rfl) y

/-- What this case leaves in the accumulator: its pieces read back. -/
def sout0_C_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) : Vec F S128x256 .f32 :=
  VS0_0.read (Elt F) (VS0_0.writes (Elt F) VS0_0.junk (kernelRun0_C c i arg2 harg2 arg3 harg3 arg4 harg4 arg5 harg5 hc0 hc1 x0 x1 xs0).2.1)

section Data
variable (V : (c : Dev nD) → (b : Ref sig .tc) → Buf (Elt F) ((c : Thread nD τ).loc b))

/-! ## What the buffers hold after each point -/

/-- After point `n`: the output's staging buffer and the accumulator, by the case `n` falls in (its number modulo 100),
    run at the point's memrefs and input blocks over the accumulator the point before left. -/
def outsAt0 (c : Dev nD) : (n : ℕ) → n < cfg0.N → Vec F S1x128x256 .f32 × Vec F S128x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 100 = 0 then
      if h1 : (n + 1) % 100 = 99 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 100 = 99 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 100 = 0) (h1 : ¬t.val % 100 = 99) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 100 = 0) (h1 : ¬t.val % 100 = 99) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 100 = 0) (h1 : t.val % 100 = 99) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start the region's resting invariant (the accumulator at anything); afterwards the accumulator
    at what the point before left, the other region's buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The region's proof data over the entry contents `V`: inputs left in place, the output's buffer and the invariant as above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's number modulo 100 says which case it is in; the invariant hands the body the
    accumulator at what the point before left (at anything at the very first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 200 := lt_of_lt_of_eq t.isLt (show cfg0.N = 200 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 100 = 0
  · by_cases h1 : t.val % 100 = 99
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 100 = 99
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting invariant back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 200 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Data

end Cert.Kernel.Fr

end
-- ==== Proof.FrKernel.R1.lean ====
/-
  The scaling pass (the second grid region): 200 points, one tile of 5000 rows each.  At every point the body reads the
  tile's rows, the tile's segment words and the whole padded gate table, and stores the tile's scaled rows into the output
  block, which is written back at every point.  Nothing is carried between points.
-/
import proofs.«421135_j50921132261525_3_alg».proof.Proof.Gen.Kernel.Launch
import proofs.«421135_j50921132261525_3_alg».proof.Proof.Gen.Kernel.Skeleton
import proofs.«421135_j50921132261525_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with, and its triple -/

abbrev VO1_3 : View sig .tc .vmem S5000x256 .f32 := (Memref.whole cc1_stg3_0 : Memref sig .tc .vmem S5000x256 .f32).view
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x256 .f32 := win1_3.stage (cfg1.slots t 3)
abbrev hs1_3 (t : Fin cfg1.N) : (ms1_3 t).IsWhole := hstage1_3 ((cfg1.slots t 3).cast nbuf1_3)

set_option maxHeartbeats 1000000 in
/-- The body's triple on whole memrefs: the three inputs at their contents come back unchanged, the output buffer (read
    once before it is overwritten, the value unused) ends with the pieces the run finds. -/
noncomputable def kernelRun1 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) :
    { L3 : List (View.Piece (Elt F) S5000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__mul_kernel i arg1 harg1 arg2 harg2 arg3 harg3 arg4 harg4) K } := by
  refine ⟨?_, fun E K => ?run⟩
  case run =>
    simp only [cc1__mul_kernel_eq_skeleton]; unfold cc1__mul_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The found pieces tile the output block, so they cover it. -/
theorem cover1_3 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) (y : S5000x256.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S5000x256.size (by sl_kernel_rfl) y

/-- What the body leaves in the output's staging buffer: its pieces read back. -/
def out1_3 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) : Vec F S5000x256 .f32 :=
  VO1_3.read (Elt F) (VO1_3.writes (Elt F) VO1_3.junk (kernelRun1 c i arg1 harg1 arg2 harg2 arg3 harg3 arg4 harg4 x0 x1 x2).1)

section Data
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (the gate table is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The region's proof data over the entry contents `V`: inputs left in place, the output at what the body stores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Fr

end
-- ==== Proof.FrKernel.Run.lean ====
/-
  The whole program as a run: a host stretch, the pooling region, three host stretches, the scaling region.

  Between two items every unscoped buffer of a core is held at a known valuation: the launch memory, then each host
  stretch applied, then — after a region — the same with the region's output array replaced by what its write-backs
  leave.  The run ends with every unscoped buffer at the last valuation; the arguments are read back through the
  valuations to the launch memory (no stretch writes one, no region may change one), and the result is what the scaling
  region's write-backs leave.
-/
import proofs.«421135_j50921132261525_3_alg».proof.Proof.Gen.Kernel.Regions
import proofs.«421135_j50921132261525_3_alg».proof.Proof.FrKernel.R0Data
import proofs.«421135_j50921132261525_3_alg».proof.Proof.FrKernel.R1
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run, given the two regions' records

  The statement of the program's conditional frame with a stronger end: every unscoped buffer is read at the last
  valuation, not only the arguments. -/

set_option backward.isDefEq.respectTransparency.types false in
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, .rfl, .rfl, hpre1 c, (hpost1 c).trans (sep_mono .rfl (hE2 c))⟩)
    (hinit := ?_) (QY := fun c s => ∀ b ∈ Pipeline.ucRefs τ sig, s.mem (((c : Thread nD τ)).1, b) = V6 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

/-! ## The valuations, with what the regions leave named -/

variable (m : (ℓ : Loc nD τ sig) → Buf (Elt F) ℓ) (ρ : Dev nD → PrngReg)

/-- What the pooling region is entered with, read at a reference. -/
abbrev E1 : (c : Dev nD) → (b : Ref sig .tc) → Buf (Elt F) ((c : Thread nD τ).loc b) := fun c b => V1 m c b

/-- What the pooling region's write-backs leave in its result array. -/
def res0 (c : Dev nD) : Buf (Elt F) ((c : Thread nD τ).loc main_v1) := (dat0 (E1 m) c).arrAt 2 cfg0.N

/-- The unknowns of the valuations with the pooling region's result filled in. -/
def outsA : Outs (F := F) := fun _ r c =>
  if h : r = main_v1 then h ▸ res0 m c else m ((c : Thread nD τ).loc r)

theorem outsA_v1 (c : Dev nD) : outsA m 2 main_v1 c = res0 m c := by
  unfold outsA; rw [dif_pos rfl]

/-- What the scaling region is entered with, read at a reference. -/
abbrev E5 : (c : Dev nD) → (b : Ref sig .tc) → Buf (Elt F) ((c : Thread nD τ).loc b) := fun c b => V5 m (outsA m) c b

/-- What the scaling region's write-backs leave in the program's result. -/
def res1 (c : Dev nD) : Buf (Elt F) ((c : Thread nD τ).loc main_v36) := (dat1 (E5 m) c).arrAt 3 cfg1.N

/-- The unknowns of the valuations, both regions' results filled in. -/
def outs : Outs (F := F) := fun _ r c =>
  if h : r = main_v1 then h ▸ res0 m c else if h' : r = main_v36 then h' ▸ res1 m c else m ((c : Thread nD τ).loc r)

theorem outs_v1 (c : Dev nD) : outs m 2 main_v1 c = res0 m c := by
  unfold outs; rw [dif_pos rfl]
theorem outs_v36 (c : Dev nD) : outs m 6 main_v36 c = res1 m c := by
  unfold outs; rw [dif_neg (by decide), dif_pos rfl]

/-- The valuation the scaling region is entered with does not depend on what that region leaves. -/
theorem V5_outs (c : Dev nD) : V5 m (outs m) c = V5 m (outsA m) c := by
  show StableHlo.after hostOps1_2 (StableHlo.after hostOps1_1 (StableHlo.after hostOps1 (Function.update (V1 m c) main_v1 (outs m 2 main_v1 c))))
    = StableHlo.after hostOps1_2 (StableHlo.after hostOps1_1 (StableHlo.after hostOps1 (Function.update (V1 m c) main_v1 (outsA m 2 main_v1 c))))
  rw [outs_v1, outsA_v1]

abbrev E2 : (c : Dev nD) → (b : Ref sig .tc) → Buf (Elt F) ((c : Thread nD τ).loc b) := fun c b => V2 m (outs m) c b
abbrev E6 : (c : Dev nD) → (b : Ref sig .tc) → Buf (Elt F) ((c : Thread nD τ).loc b) := fun c b => V6 m (outs m) c b

theorem V2_v1 (c : Dev nD) : V2 m (outs m) c main_v1 = res0 m c := by
  show Function.update (V1 m c) main_v1 (outs m 2 main_v1 c) main_v1 = _
  rw [Function.update_self, outs_v1]
theorem V6_v36 (c : Dev nD) : V6 m (outs m) c main_v36 = res1 m c := by
  show Function.update (V5 m (outs m) c) main_v36 (outs m 6 main_v36 c) main_v36 = _
  rw [Function.update_self, outs_v36]

/-- At the pooling region's exit each of its arrays holds what the pipeline leaves, -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (V2_of m (outs m) c main_arg0 (by decide)).symm
  | ⟨1, _⟩ => exact (((dat0 (E1 m) c).arrAt_in 1 rfl _).trans (A_eq0 (E1 m) c 1)).trans (V2_of m (outs m) c main_v0 (by decide)).symm
  | ⟨2, _⟩ => exact (V2_v1 m c).symm
/-- and every other buffer what it held at entry. -/
theorem hrest0 (c : Dev nD) : ∀ b, b ∉ Finset.univ.image (Pipeline.arrRef spec0) → E2 m c b = E1 m c b :=
  fun b hb => V2_of m (outs m) c b fun h => hb (Finset.mem_image.mpr ⟨2, Finset.mem_univ _, by rw [List.mem_singleton.mp h]⟩)

theorem hF1 (c : Dev nD) (w : Fin cfg1.W) : (dat1 (E5 m) c).arrAt w cfg1.N = E6 m c (Pipeline.arrRef spec1 w) := by
  match w with
  | ⟨0, _⟩ => exact (((dat1 (E5 m) c).arrAt_in 0 rfl _).trans (A_eq1 (E5 m) c 0)).trans (((V6_of m (outs m) c main_arg0 (by decide)).trans (congrFun (V5_outs m c) _)).symm)
  | ⟨1, _⟩ => exact (((dat1 (E5 m) c).arrAt_in 1 rfl _).trans (A_eq1 (E5 m) c 1)).trans (((V6_of m (outs m) c main_v0 (by decide)).trans (congrFun (V5_outs m c) _)).symm)
  | ⟨2, _⟩ => exact (((dat1 (E5 m) c).arrAt_in 2 rfl _).trans (A_eq1 (E5 m) c 2)).trans (((V6_of m (outs m) c main_v35 (by decide)).trans (congrFun (V5_outs m c) _)).symm)
  | ⟨3, _⟩ => exact (V6_v36 m c).symm
theorem hrest1 (c : Dev nD) : ∀ b, b ∉ Finset.univ.image (Pipeline.arrRef spec1) → E6 m c b = E5 m c b :=
  fun b hb => (V6_of m (outs m) c b fun h => hb (Finset.mem_image.mpr ⟨3, Finset.mem_univ _, by rw [List.mem_singleton.mp h]⟩)).trans (congrFun (V5_outs m c) _)

/-! ## The proof data family, the thread state, the two regions as segments -/

/-- Each region's proof data at its entry contents: a literal match on the region. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

/-- No core owes another anything: no level is assigned. -/
abbrev L₀ : GSem nD τ sig → Finset Unit := fun _ => ∅
abbrev lv₀ : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

set_option backward.isDefEq.respectTransparency.types false in
/-- The pooling region over the thread state: its arrays split out of the unscoped buffers and put back at the exit
    contents; the generator register into the invariant and out; nothing owed; no semaphore of the kernel's own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L₀ lv₀ 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state, likewise. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L₀ lv₀ 1 fun _ _ => rfl
  pre c := iprop(StableHlo.held (c : Thread nD τ) (Pipeline.ucRefs τ sig) (V5 m (outsA m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of the program from memory `m` with zero counters terminates, nothing faulting, and
    ends with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m (Ix := Unit) (U := UR sig nD τ) (Lvl := ℕ) emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have h : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rst c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => Rst c) : sProp 𝕄) := bigSep_mono fun c _ => h c
      iintro ⟨H, -⟩
      imodintro
      iapply hm
      iexact H)
    (hE2 := fun c => by iintro ⟨-, H⟩; iexact H)
    (reg0 m) (fun _ => .rfl) (fun _ => .rfl)
    (reg1 m) (fun c => by rw [V5_outs m c]; exact .rfl) (fun _ => .rfl)

/-- The result array ends at what the scaling region's write-backs leave. -/
theorem end_result (c : Dev nD) : V6 m (outs m) c main_v36 = res1 m c := V6_v36 m c

/-- `main_arg0` ends as launched: no host stretch writes it, no region may change it. -/
theorem end_main_arg0 (c : Dev nD) : V6 m (outs m) c main_arg0 = m ((c : Thread nD τ).loc main_arg0) := V6_main_arg0 m (outs m) c
/-- `main_arg1` ends as launched: no host stretch writes it, no region may change it. -/
theorem end_main_arg1 (c : Dev nD) : V6 m (outs m) c main_arg1 = m ((c : Thread nD τ).loc main_arg1) := V6_main_arg1 m (outs m) c
/-- `main_arg2` ends as launched: no host stretch writes it, no region may change it. -/
theorem end_main_arg2 (c : Dev nD) : V6 m (outs m) c main_arg2 = m ((c : Thread nD τ).loc main_arg2) := V6_main_arg2 m (outs m) c
/-- `main_arg3` ends as launched: no host stretch writes it, no region may change it. -/
theorem end_main_arg3 (c : Dev nD) : V6 m (outs m) c main_arg3 = m ((c : Thread nD τ).loc main_arg3) := V6_main_arg3 m (outs m) c
/-- `main_arg4` ends as launched: no host stretch writes it, no region may change it. -/
theorem end_main_arg4 (c : Dev nD) : V6 m (outs m) c main_arg4 = m ((c : Thread nD τ).loc main_arg4) := V6_main_arg4 m (outs m) c
/-- `main_arg5` ends as launched: no host stretch writes it, no region may change it. -/
theorem end_main_arg5 (c : Dev nD) : V6 m (outs m) c main_arg5 = m ((c : Thread nD τ).loc main_arg5) := V6_main_arg5 m (outs m) c

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

/-- The run with the result named: the result array at what the scaling region leaves, the arguments unchanged. -/
theorem run_result : θ_run defs (onTc (τ := τ) (main (F := F))) ⟨m, fun _ => 0, ρ⟩ (fun r => ∀ c : Dev nD,
      r.2.mem ((c.tc : Thread nD τ).loc main_v36) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v36 (by decide))).trans (end_result m c),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

end Cert.Kernel.Fr

end
-- ==== Proof.FrKernelIdeal.R0Runs.lean ====
/-
  The pooling pass (the first of the two grid regions), what its case runs share.

  The grid is 2 x 100: coordinate 0 picks a half of the rows, coordinate 1 walks that half's 100 tiles of 5000 rows.
  The body resets its accumulator when coordinate 1 is 0, adds the tile's contribution at every point, and copies the
  accumulator into the output block when coordinate 1 is 99.  So a point is in one of three cases, decided by the
  point's number modulo 100: 0 (reset and add), 99 (add and copy out), anything else (add).  The output window is
  idle and not written back except at the points that copy out.
-/
import proofs.«421135_j50921132261525_3_alg».proof.Proof.Gen.KernelIdeal.Launch
import proofs.«421135_j50921132261525_3_alg».proof.Proof.Gen.KernelIdeal.Skeleton
import proofs.«421135_j50921132261525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the tile's rows at every point, for any proof data over `V` that leaves them in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the segment words' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions, decided over the grid -/

/-- "Coordinate 1 is 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- "Coordinate 1 is 99": the accumulator is copied out. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x128x256 .f32 := (Memref.whole cc0_stg2_0 : Memref sig .tc .vmem S1x128x256 .f32).view
abbrev ms0_0 (t : Fin cfg0.N) : Memref sig .tc .vmem S5000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S128x256 .f32 := Memref.whole cc0_scratch0
abbrev VS0_0 : View sig .tc .vmem S128x256 .f32 := scM0_0.view

/-- The scoped buffers of the OTHER region (its seven staging buffers), each whole at some contents: this body never
    touches them; they ride along in the invariant. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant: the accumulator owned at some contents, the other region's buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Fr

end
-- ==== Proof.FrKernelIdeal.R0RunA.lean ====
/-
  The pooling pass at a point that resets the accumulator and adds the tile (point number ≡ 0 mod 100): the output window is idle.
-/
import proofs.«421135_j50921132261525_3_alg».proof.Proof.FrKernelIdeal.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_A (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) :
    Σ' (L2 : List (View.Piece (Elt F) S1x128x256 .f32)), { LS0 : List (View.Piece (Elt F) S128x256 .f32) //
      ∀ (xi2 : Vec F S1x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.R0RunB.lean ====
/-
  The pooling pass at a point that only adds the tile to the accumulator the point before left: the output window is idle.
-/
import proofs.«421135_j50921132261525_3_alg».proof.Proof.FrKernelIdeal.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_B (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) :
    Σ' (L2 : List (View.Piece (Elt F) S1x128x256 .f32)), { LS0 : List (View.Piece (Elt F) S128x256 .f32) //
      ∀ (xi2 : Vec F S1x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.R0RunC.lean ====
/-
  The pooling pass at a half's last tile (point number ≡ 99 mod 100): it adds the tile and copies the accumulator into the output block.
-/
import proofs.«421135_j50921132261525_3_alg».proof.Proof.FrKernelIdeal.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 1000000 in
/-- The body's triple in this case, on whole memrefs: the two inputs at their contents come back unchanged; the pieces the
    stores leave in the accumulator (and, where the case copies out, in the output buffer) are found by the run. -/
noncomputable def kernelRun0_C (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) :
    Σ' (L2 : List (View.Piece (Elt F) S1x128x256 .f32)), { LS0 : List (View.Piece (Elt F) S128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrKernelIdeal.R0Data.lean ====
/-
  The pooling pass: what the accumulator and the output buffer hold after each point, the region's invariant and proof
  data, and the body obligation.

  After point `n` the accumulator holds what the point's case leaves in it; in every case but the reset this is computed
  over what the point before left (`outsAt0`, by recursion on the point).  Between points the invariant owns the
  accumulator at exactly that value, next to the other region's buffers and the generator register, all untouched.
-/
import proofs.«421135_j50921132261525_3_alg».proof.Proof.FrKernelIdeal.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- This case stores nothing into the output (the window is idle there): a placeholder that nothing consults. -/
def out0_A_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) : Vec F S1x128x256 .f32 :=
  VO0_2.read (Elt F) (VO0_2.writes (Elt F) VO0_2.junk (kernelRun0_A c i arg2 harg2 arg3 harg3 arg4 harg4 arg5 harg5 hc0 hc1 x0 x1).1)

/-- The pieces stored into the accumulator tile it, so they cover it. -/
theorem scover0_A_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) (y : S128x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x256.size (by sl_kernel_rfl) y

/-- What this case leaves in the accumulator: its pieces read back. -/
def sout0_A_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : cond0_0 i) (hc1 : ¬cond0_1 i)
    (x0 : Vec F S5000x256 .f32) (x1 : Vec F S5000x1 .i32) : Vec F S128x256 .f32 :=
  VS0_0.read (Elt F) (VS0_0.writes (Elt F) VS0_0.junk (kernelRun0_A c i arg2 harg2 arg3 harg3 arg4 harg4 arg5 harg5 hc0 hc1 x0 x1).2.1)

/-- This case stores nothing into the output (the window is idle there): a placeholder that nothing consults. -/
def out0_B_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) : Vec F S1x128x256 .f32 :=
  VO0_2.read (Elt F) (VO0_2.writes (Elt F) VO0_2.junk (kernelRun0_B c i arg2 harg2 arg3 harg3 arg4 harg4 arg5 harg5 hc0 hc1 x0 x1 xs0).1)

/-- The pieces stored into the accumulator tile it, so they cover it. -/
theorem scover0_B_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) (y : S128x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x256.size (by sl_kernel_rfl) y

/-- What this case leaves in the accumulator: its pieces read back. -/
def sout0_B_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : ¬cond0_1 i)
    (x0 : Vec F S5000x256 .f32) (x1 : Vec F S5000x1 .i32) (xs0 : Vec F S128x256 .f32) : Vec F S128x256 .f32 :=
  VS0_0.read (Elt F) (VS0_0.writes (Elt F) VS0_0.junk (kernelRun0_B c i arg2 harg2 arg3 harg3 arg4 harg4 arg5 harg5 hc0 hc1 x0 x1 xs0).2.1)

/-- The pieces stored into the output block tile it, so they cover it. -/
theorem cover0_C_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) (y : S1x128x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x256.size (by sl_kernel_rfl) y

/-- What this case leaves in the output's staging buffer: the copied accumulator, its pieces read back. -/
def out0_C_2 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) : Vec F S1x128x256 .f32 :=
  VO0_2.read (Elt F) (VO0_2.writes (Elt F) VO0_2.junk (kernelRun0_C c i arg2 harg2 arg3 harg3 arg4 harg4 arg5 harg5 hc0 hc1 x0 x1 xs0).1)

/-- The pieces stored into the accumulator tile it, so they cover it. -/
theorem scover0_C_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) (y : S128x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x256.size (by sl_kernel_rfl) y

/-- What this case leaves in the accumulator: its pieces read back. -/
def sout0_C_0 (c : Dev nD) (i : grid0.Coords) (arg2 : Memref sig .tc .vmem S5000x256 .f32) (harg2 : arg2.IsWhole) (arg3 : Memref sig .tc .vmem S5000x1 .i32) (harg3 : arg3.IsWhole) (arg4 : Memref sig .tc .vmem S1x128x256 .f32) (harg4 : arg4.IsWhole) (arg5 : Memref sig .tc .vmem S128x256 .f32) (harg5 : arg5.IsWhole) (hc0 : ¬cond0_0 i) (hc1 : cond0_1 i)
    (x0 : Vec F S5000x256 .f32) (x1 : Vec F S5000x1 .i32) (xs0 : Vec F S128x256 .f32) : Vec F S128x256 .f32 :=
  VS0_0.read (Elt F) (VS0_0.writes (Elt F) VS0_0.junk (kernelRun0_C c i arg2 harg2 arg3 harg3 arg4 harg4 arg5 harg5 hc0 hc1 x0 x1 xs0).2.1)

section Data
variable (V : (c : Dev nD) → (b : Ref sig .tc) → Buf (Elt F) ((c : Thread nD τ).loc b))

/-! ## What the buffers hold after each point -/

/-- After point `n`: the output's staging buffer and the accumulator, by the case `n` falls in (its number modulo 100),
    run at the point's memrefs and input blocks over the accumulator the point before left. -/
def outsAt0 (c : Dev nD) : (n : ℕ) → n < cfg0.N → Vec F S1x128x256 .f32 × Vec F S128x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 100 = 0 then
      if h1 : (n + 1) % 100 = 99 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 100 = 99 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 100 = 0) (h1 : ¬t.val % 100 = 99) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 100 = 0) (h1 : ¬t.val % 100 = 99) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 100 = 0) (h1 : t.val % 100 = 99) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start the region's resting invariant (the accumulator at anything); afterwards the accumulator
    at what the point before left, the other region's buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The region's proof data over the entry contents `V`: inputs left in place, the output's buffer and the invariant as above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's number modulo 100 says which case it is in; the invariant hands the body the
    accumulator at what the point before left (at anything at the very first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 200 := lt_of_lt_of_eq t.isLt (show cfg0.N = 200 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 100 = 0
  · by_cases h1 : t.val % 100 = 99
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 100 = 99
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting invariant back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 200 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Data

end Cert.KernelIdeal.Fr

end
-- ==== Proof.FrKernelIdeal.R1.lean ====
/-
  The scaling pass (the second grid region): 200 points, one tile of 5000 rows each.  At every point the body reads the
  tile's rows, the tile's segment words and the whole padded gate table, and stores the tile's scaled rows into the output
  block, which is written back at every point.  Nothing is carried between points.
-/
import proofs.«421135_j50921132261525_3_alg».proof.Proof.Gen.KernelIdeal.Launch
import proofs.«421135_j50921132261525_3_alg».proof.Proof.Gen.KernelIdeal.Skeleton
import proofs.«421135_j50921132261525_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with, and its triple -/

abbrev VO1_3 : View sig .tc .vmem S5000x256 .f32 := (Memref.whole cc1_stg3_0 : Memref sig .tc .vmem S5000x256 .f32).view
abbrev ms1_0 (t : Fin cfg1.N) : Memref sig .tc .vmem S5000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x256 .f32 := win1_3.stage (cfg1.slots t 3)
abbrev hs1_3 (t : Fin cfg1.N) : (ms1_3 t).IsWhole := hstage1_3 ((cfg1.slots t 3).cast nbuf1_3)

set_option maxHeartbeats 1000000 in
/-- The body's triple on whole memrefs: the three inputs at their contents come back unchanged, the output buffer (read
    once before it is overwritten, the value unused) ends with the pieces the run finds. -/
noncomputable def kernelRun1 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) :
    { L3 : List (View.Piece (Elt F) S5000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__mul_kernel i arg1 harg1 arg2 harg2 arg3 harg3 arg4 harg4) K } := by
  refine ⟨?_, fun E K => ?run⟩
  case run =>
    simp only [cc1__mul_kernel_eq_skeleton]; unfold cc1__mul_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The found pieces tile the output block, so they cover it. -/
theorem cover1_3 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) (y : S5000x256.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S5000x256.size (by sl_kernel_rfl) y

/-- What the body leaves in the output's staging buffer: its pieces read back. -/
def out1_3 (c : Dev nD) (i : grid1.Coords) (arg1 : Memref sig .tc .vmem S5000x256 .f32) (harg1 : arg1.IsWhole) (arg2 : Memref sig .tc .vmem S5000x1 .i32) (harg2 : arg2.IsWhole) (arg3 : Memref sig .tc .vmem S128x256 .bf16) (harg3 : arg3.IsWhole) (arg4 : Memref sig .tc .vmem S5000x256 .f32) (harg4 : arg4.IsWhole)
    (x0 : Vec F S5000x256 .f32) (x1 : Vec F S5000x1 .i32) (x2 : Vec F S128x256 .bf16) : Vec F S5000x256 .f32 :=
  VO1_3.read (Elt F) (VO1_3.writes (Elt F) VO1_3.junk (kernelRun1 c i arg1 harg1 arg2 harg2 arg3 harg3 arg4 harg4 x0 x1 x2).1)

section Data
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (the gate table is fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The region's proof data over the entry contents `V`: inputs left in place, the output at what the body stores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' memrefs hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Fr

end
-- ==== Proof.FrKernelIdeal.Run.lean ====
/-
  The whole program as a run: a host stretch, the pooling region, three host stretches, the scaling region.

  Between two items every unscoped buffer of a core is held at a known valuation: the launch memory, then each host
  stretch applied, then — after a region — the same with the region's output array replaced by what its write-backs
  leave.  The run ends with every unscoped buffer at the last valuation; the arguments are read back through the
  valuations to the launch memory (no stretch writes one, no region may change one), and the result is what the scaling
  region's write-backs leave.
-/
import proofs.«421135_j50921132261525_3_alg».proof.Proof.Gen.KernelIdeal.Regions
import proofs.«421135_j50921132261525_3_alg».proof.Proof.FrKernelIdeal.R0Data
import proofs.«421135_j50921132261525_3_alg».proof.Proof.FrKernelIdeal.R1
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run, given the two regions' records

  The statement of the program's conditional frame with a stronger end: every unscoped buffer is read at the last
  valuation, not only the arguments. -/

set_option backward.isDefEq.respectTransparency.types false in
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, .rfl, .rfl, hpre1 c, (hpost1 c).trans (sep_mono .rfl (hE2 c))⟩)
    (hinit := ?_) (QY := fun c s => ∀ b ∈ Pipeline.ucRefs τ sig, s.mem (((c : Thread nD τ)).1, b) = V6 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

/-! ## The valuations, with what the regions leave named -/

variable (m : (ℓ : Loc nD τ sig) → Buf (Elt F) ℓ) (ρ : Dev nD → PrngReg)

/-- What the pooling region is entered with, read at a reference. -/
abbrev E1 : (c : Dev nD) → (b : Ref sig .tc) → Buf (Elt F) ((c : Thread nD τ).loc b) := fun c b => V1 m c b

/-- What the pooling region's write-backs leave in its result array. -/
def res0 (c : Dev nD) : Buf (Elt F) ((c : Thread nD τ).loc main_v1) := (dat0 (E1 m) c).arrAt 2 cfg0.N

/-- The unknowns of the valuations with the pooling region's result filled in. -/
def outsA : Outs (F := F) := fun _ r c =>
  if h : r = main_v1 then h ▸ res0 m c else m ((c : Thread nD τ).loc r)

theorem outsA_v1 (c : Dev nD) : outsA m 2 main_v1 c = res0 m c := by
  unfold outsA; rw [dif_pos rfl]

/-- What the scaling region is entered with, read at a reference. -/
abbrev E5 : (c : Dev nD) → (b : Ref sig .tc) → Buf (Elt F) ((c : Thread nD τ).loc b) := fun c b => V5 m (outsA m) c b

/-- What the scaling region's write-backs leave in the program's result. -/
def res1 (c : Dev nD) : Buf (Elt F) ((c : Thread nD τ).loc main_v36) := (dat1 (E5 m) c).arrAt 3 cfg1.N

/-- The unknowns of the valuations, both regions' results filled in. -/
def outs : Outs (F := F) := fun _ r c =>
  if h : r = main_v1 then h ▸ res0 m c else if h' : r = main_v36 then h' ▸ res1 m c else m ((c : Thread nD τ).loc r)

theorem outs_v1 (c : Dev nD) : outs m 2 main_v1 c = res0 m c := by
  unfold outs; rw [dif_pos rfl]
theorem outs_v36 (c : Dev nD) : outs m 6 main_v36 c = res1 m c := by
  unfold outs; rw [dif_neg (by decide), dif_pos rfl]

/-- The valuation the scaling region is entered with does not depend on what that region leaves. -/
theorem V5_outs (c : Dev nD) : V5 m (outs m) c = V5 m (outsA m) c := by
  show StableHlo.after hostOps1_2 (StableHlo.after hostOps1_1 (StableHlo.after hostOps1 (Function.update (V1 m c) main_v1 (outs m 2 main_v1 c))))
    = StableHlo.after hostOps1_2 (StableHlo.after hostOps1_1 (StableHlo.after hostOps1 (Function.update (V1 m c) main_v1 (outsA m 2 main_v1 c))))
  rw [outs_v1, outsA_v1]

abbrev E2 : (c : Dev nD) → (b : Ref sig .tc) → Buf (Elt F) ((c : Thread nD τ).loc b) := fun c b => V2 m (outs m) c b
abbrev E6 : (c : Dev nD) → (b : Ref sig .tc) → Buf (Elt F) ((c : Thread nD τ).loc b) := fun c b => V6 m (outs m) c b

theorem V2_v1 (c : Dev nD) : V2 m (outs m) c main_v1 = res0 m c := by
  show Function.update (V1 m c) main_v1 (outs m 2 main_v1 c) main_v1 = _
  rw [Function.update_self, outs_v1]
theorem V6_v36 (c : Dev nD) : V6 m (outs m) c main_v36 = res1 m c := by
  show Function.update (V5 m (outs m) c) main_v36 (outs m 6 main_v36 c) main_v36 = _
  rw [Function.update_self, outs_v36]

/-- At the pooling region's exit each of its arrays holds what the pipeline leaves, -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (V2_of m (outs m) c main_arg0 (by decide)).symm
  | ⟨1, _⟩ => exact (((dat0 (E1 m) c).arrAt_in 1 rfl _).trans (A_eq0 (E1 m) c 1)).trans (V2_of m (outs m) c main_v0 (by decide)).symm
  | ⟨2, _⟩ => exact (V2_v1 m c).symm
/-- and every other buffer what it held at entry. -/
theorem hrest0 (c : Dev nD) : ∀ b, b ∉ Finset.univ.image (Pipeline.arrRef spec0) → E2 m c b = E1 m c b :=
  fun b hb => V2_of m (outs m) c b fun h => hb (Finset.mem_image.mpr ⟨2, Finset.mem_univ _, by rw [List.mem_singleton.mp h]⟩)

theorem hF1 (c : Dev nD) (w : Fin cfg1.W) : (dat1 (E5 m) c).arrAt w cfg1.N = E6 m c (Pipeline.arrRef spec1 w) := by
  match w with
  | ⟨0, _⟩ => exact (((dat1 (E5 m) c).arrAt_in 0 rfl _).trans (A_eq1 (E5 m) c 0)).trans (((V6_of m (outs m) c main_arg0 (by decide)).trans (congrFun (V5_outs m c) _)).symm)
  | ⟨1, _⟩ => exact (((dat1 (E5 m) c).arrAt_in 1 rfl _).trans (A_eq1 (E5 m) c 1)).trans (((V6_of m (outs m) c main_v0 (by decide)).trans (congrFun (V5_outs m c) _)).symm)
  | ⟨2, _⟩ => exact (((dat1 (E5 m) c).arrAt_in 2 rfl _).trans (A_eq1 (E5 m) c 2)).trans (((V6_of m (outs m) c main_v35 (by decide)).trans (congrFun (V5_outs m c) _)).symm)
  | ⟨3, _⟩ => exact (V6_v36 m c).symm
theorem hrest1 (c : Dev nD) : ∀ b, b ∉ Finset.univ.image (Pipeline.arrRef spec1) → E6 m c b = E5 m c b :=
  fun b hb => (V6_of m (outs m) c b fun h => hb (Finset.mem_image.mpr ⟨3, Finset.mem_univ _, by rw [List.mem_singleton.mp h]⟩)).trans (congrFun (V5_outs m c) _)

/-! ## The proof data family, the thread state, the two regions as segments -/

/-- Each region's proof data at its entry contents: a literal match on the region. -/
def pdats : (p : Fin 2) → (c : Dev nD) → Dat τ (Elt F) Unit ℕ (UR sig nD τ) ℕ (cfgs p) c
  | ⟨0, _⟩ => fun c => dat0 (E1 m) c
  | ⟨1, _⟩ => fun c => dat1 (E5 m) c

/-- No core owes another anything: no level is assigned. -/
abbrev L₀ : GSem nD τ sig → Finset Unit := fun _ => ∅
abbrev lv₀ : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

set_option backward.isDefEq.respectTransparency.types false in
/-- The pooling region over the thread state: its arrays split out of the unscoped buffers and put back at the exit
    contents; the generator register into the invariant and out; nothing owed; no semaphore of the kernel's own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L₀ lv₀ 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state, likewise. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L₀ lv₀ 1 fun _ _ => rfl
  pre c := iprop(StableHlo.held (c : Thread nD τ) (Pipeline.ucRefs τ sig) (V5 m (outsA m) c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of the program from memory `m` with zero counters terminates, nothing faulting, and
    ends with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) :=
  run_cond m (Ix := Unit) (U := UR sig nD τ) (Lvl := ℕ) emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      have h : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rst c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => Rst c) : sProp 𝕄) := bigSep_mono fun c _ => h c
      iintro ⟨H, -⟩
      imodintro
      iapply hm
      iexact H)
    (hE2 := fun c => by iintro ⟨-, H⟩; iexact H)
    (reg0 m) (fun _ => .rfl) (fun _ => .rfl)
    (reg1 m) (fun c => by rw [V5_outs m c]; exact .rfl) (fun _ => .rfl)

/-- The result array ends at what the scaling region's write-backs leave. -/
theorem end_result (c : Dev nD) : V6 m (outs m) c main_v36 = res1 m c := V6_v36 m c

/-- `main_arg0` ends as launched: no host stretch writes it, no region may change it. -/
theorem end_main_arg0 (c : Dev nD) : V6 m (outs m) c main_arg0 = m ((c : Thread nD τ).loc main_arg0) := V6_main_arg0 m (outs m) c
/-- `main_arg1` ends as launched: no host stretch writes it, no region may change it. -/
theorem end_main_arg1 (c : Dev nD) : V6 m (outs m) c main_arg1 = m ((c : Thread nD τ).loc main_arg1) := V6_main_arg1 m (outs m) c
/-- `main_arg2` ends as launched: no host stretch writes it, no region may change it. -/
theorem end_main_arg2 (c : Dev nD) : V6 m (outs m) c main_arg2 = m ((c : Thread nD τ).loc main_arg2) := V6_main_arg2 m (outs m) c
/-- `main_arg3` ends as launched: no host stretch writes it, no region may change it. -/
theorem end_main_arg3 (c : Dev nD) : V6 m (outs m) c main_arg3 = m ((c : Thread nD τ).loc main_arg3) := V6_main_arg3 m (outs m) c
/-- `main_arg4` ends as launched: no host stretch writes it, no region may change it. -/
theorem end_main_arg4 (c : Dev nD) : V6 m (outs m) c main_arg4 = m ((c : Thread nD τ).loc main_arg4) := V6_main_arg4 m (outs m) c
/-- `main_arg5` ends as launched: no host stretch writes it, no region may change it. -/
theorem end_main_arg5 (c : Dev nD) : V6 m (outs m) c main_arg5 = m ((c : Thread nD τ).loc main_arg5) := V6_main_arg5 m (outs m) c

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

/-- The run with the result named: the result array at what the scaling region leaves, the arguments unchanged. -/
theorem run_result : θ_run defs (onTc (τ := τ) (main (F := F))) ⟨m, fun _ => 0, ρ⟩ (fun r => ∀ c : Dev nD,
      r.2.mem ((c.tc : Thread nD τ).loc main_v36) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v36 (by decide))).trans (end_result m c),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c)⟩) (run_all m ρ)

end Cert.KernelIdeal.Fr

end
-- ==== Proof.Spec.lean ====
/-
  The vocabulary both sides of the equivalence are stated in.

  A row `n` of `feats` carries a segment word `bidx n`.  The pooled gate is a 32-row table `y`; the result scales
  row `n` of `feats` by row `bidx n` of `y`.  The segment sums that `y` is computed from are, for segment `s`,
  the sum over ALL rows of `hot (bidx n) s * feats n`: a row contributes exactly when its word is `s`.
-/
import Idealize.ShloMosaic.PureOps.Ideal
import Idealize.ShloMosaic.Lib.ValueIdx

noncomputable section

namespace Cert.Hand

open Idealize.ShloMosaic Idealize.ShloMosaic.ValueIdx

/-- The shapes of the statement, spelt as literals (the printed programs' named shapes unfold to these). -/
abbrev SRows : Shape := ⟨1, ![1000000]⟩
abbrev SFeats : Shape := ⟨2, ![1000000, 256]⟩
abbrev SGate : Shape := ⟨2, ![32, 256]⟩

/-- The one-hot weight of a segment word against segment `s`: `1` when the word, read signed, is `s`, else `0`. -/
def hot (b : BitVec 32) (s : ℕ) : EReal := if b.toInt = (s : ℤ) then 1 else 0

theorem hot_of_eq {b : BitVec 32} {s : ℕ} (h : b.toInt = (s : ℤ)) : hot b s = 1 := if_pos h
theorem hot_of_ne {b : BitVec 32} {s : ℕ} (h : b.toInt ≠ (s : ℤ)) : hot b s = 0 := if_neg h

/-- Every row's segment word, read signed, lies in `[0, 32)`: the domain on which the reference indexes its 32 gate rows
    in range. -/
def InRange (bidx : IVec SRows 32) : Prop :=
  ∀ n : Fin 1000000, 0 ≤ (bidx (ix1 n)).toInt ∧ (bidx (ix1 n)).toInt < 32

/-- Row `n`'s segment as an index of the 32 gate rows (read modulo 32 so that it is total; in range it is the word). -/
def segOf (bidx : IVec SRows 32) (n : Fin 1000000) : Fin 32 :=
  ⟨(bidx (ix1 n)).toInt.toNat % 32, Nat.mod_lt _ (by decide)⟩

theorem segOf_val {bidx : IVec SRows 32} (h : InRange bidx) (n : Fin 1000000) :
    ((segOf bidx n).val : ℤ) = (bidx (ix1 n)).toInt := by
  obtain ⟨h0, h1⟩ := h n
  show (((bidx (ix1 n)).toInt.toNat % 32 : ℕ) : ℤ) = _
  omega

/-- What both programs compute: each row of `feats` scaled, entry by entry, by its segment's row of the gate table. -/
def scaled (y : FVec Ideal SGate .f32) (feats : FVec Ideal SFeats .f32) (bidx : IVec SRows 32) : FVec Ideal SFeats .f32 :=
  fun i => feats i * y (ix2 (segOf bidx ⟨(i 0).val, idx2_lt0 i⟩) ⟨(i 1).val, idx2_lt1 i⟩)

theorem scaled_apply (y : FVec Ideal SGate .f32) (feats : FVec Ideal SFeats .f32) (bidx : IVec SRows 32)
    (n : Fin 1000000) (j : Fin 256) : scaled y feats bidx (ix2 n j) = feats (ix2 n j) * y (ix2 (segOf bidx n) j) := rfl

/-- The segment sums: entry `(s, j)` is the sum over all rows of the row's weight for `s` times its entry `j`. -/
def segSum (feats : FVec Ideal SFeats .f32) (bidx : IVec SRows 32) : FVec Ideal SGate .f32 :=
  fun i => ∑ n : Fin 1000000, hot (bidx (ix1 n)) (i 0).val * feats (ix2 n ⟨(i 1).val, idx2_lt1 i⟩)

theorem segSum_apply (feats : FVec Ideal SFeats .f32) (bidx : IVec SRows 32) (s : Fin 32) (j : Fin 256) :
    segSum feats bidx (ix2 s j) = ∑ n : Fin 1000000, hot (bidx (ix1 n)) s.val * feats (ix2 n j) := rfl

end Cert.Hand

end
-- ==== Proof.Val.PoolPay.lean ====
/-
  The pooling pass's arithmetic, entry by entry, over the extended reals.

  The body builds, from a column of 5000 segment words, the 5000 x 128 table whose entry (r, s) is 1 when row r's word
  is s and 0 otherwise, multiplies its transpose with the 5000 x 256 tile of rows (a product that contracts the row axis
  of both operands), and adds the 128 x 256 result to the accumulator.  So entry (s, j) of the update is the
  accumulator's entry plus the sum over the tile's rows of the row's weight for s times the row's entry j.
-/
import proofs.«421135_j50921132261525_3_alg».proof.Proof.Gen.KernelIdeal.Skeleton
import proofs.«421135_j50921132261525_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

namespace Pool

/-! ## The one-hot weight -/

/-- A word below 2^31 read signed is itself. -/
theorem toInt_ofNat_small (s : ℕ) (hs : s < 128) : (BitVec.ofNat 32 s).toInt = (s : ℤ) := by
  rw [BitVec.toInt_eq_toNat_cond, BitVec.toNat_ofNat]
  have : s % 2 ^ 32 = s := Nat.mod_eq_of_lt (by omega)
  rw [this]
  split <;> omega

/-- The comparison of a word with the lane number `s`, widened and converted, is the one-hot weight. -/
theorem onehot_scalar (b : BitVec 32) (s : Fin 128) :
    FloatOps.sitofp (F := Ideal) .f32 ((IntOp.cmpi .eq b (BitVec.ofNat 32 s.val)).setWidth 32) = Cert.Hand.hot b s.val := by
  by_cases h : b = BitVec.ofNat 32 s.val
  · subst h
    rw [Cert.Hand.hot_of_eq (toInt_ofNat_small s.val s.isLt)]
    show (((((IntOp.cmpi .eq (BitVec.ofNat 32 s.val) (BitVec.ofNat 32 s.val)).setWidth 32).toInt : ℤ) : ℝ) : EReal) = 1
    have e : (IntOp.cmpi .eq (BitVec.ofNat 32 s.val) (BitVec.ofNat 32 s.val)).setWidth 32 = 1#32 := by
      simp [IntOp.cmpi]
    rw [e]
    norm_num
  · have hne : b.toInt ≠ (s.val : ℤ) := fun he => h (BitVec.eq_of_toInt_eq (he.trans (toInt_ofNat_small s.val s.isLt).symm))
    rw [Cert.Hand.hot_of_ne hne]
    show (((((IntOp.cmpi .eq b (BitVec.ofNat 32 s.val)).setWidth 32).toInt : ℤ) : ℝ) : EReal) = 0
    have hb : (b == BitVec.ofNat 32 s.val) = false := beq_eq_false_iff_ne.mpr h
    have e : (IntOp.cmpi .eq b (BitVec.ofNat 32 s.val)).setWidth 32 = 0#32 := by
      show BitVec.setWidth 32 (BitVec.ofBool (b == BitVec.ofNat 32 s.val)) = 0#32
      rw [hb]; rfl
    rw [e]
    norm_num

/-- Entry `(r, s)` of the one-hot tile built from a column of words: the weight of row `r`'s word for segment `s`. -/
theorem onehot_apply (x1 : IVec S5000x1 32) (r : Fin 5000) (s : Fin 128) :
    (truncf .bf16 (sitofp (F := Ideal) .f32 (extui 32 (cmpi .eq (broadcastTo S5000x128 (shapeCast S5000x1 x1 shapeCasts_S5000x1_S5000x1) broadcasts_S5000x1_S5000x128)
      (iota .tc S5000x128 32 [1] iota_S5000x128_d1_w32)) natLt_1_32)) bitsLt_bf16_f32 : FVec Ideal S5000x128 .bf16) (ix2 r s)
      = Cert.Hand.hot (x1 (ix2 r 0)) s.val := by
  have e1 : broadcastTo S5000x128 (shapeCast S5000x1 x1 shapeCasts_S5000x1_S5000x1) broadcasts_S5000x1_S5000x128 (ix2 r s) = x1 (ix2 r 0) :=
    (broadcastTo_apply (shapeCast S5000x1 x1 shapeCasts_S5000x1_S5000x1) broadcasts_S5000x1_S5000x128 (ix2 r s) (ix2 r 0)
      (fun a => match a with | ⟨0, _⟩ => rfl | ⟨1, _⟩ => rfl)).trans (congrFun (shapeCast_self x1 shapeCasts_S5000x1_S5000x1) (ix2 r 0))
  have e2 : iota .tc S5000x128 32 [1] iota_S5000x128_d1_w32 (ix2 r s) = BitVec.ofNat 32 s.val :=
    iota_single_apply .tc S5000x128 32 1 iota_S5000x128_d1_w32 (ix2 r s)
  show FloatOps.sitofp (F := Ideal) .f32 ((IntOp.cmpi .eq (broadcastTo S5000x128 (shapeCast S5000x1 x1 shapeCasts_S5000x1_S5000x1) broadcasts_S5000x1_S5000x128 (ix2 r s))
      (iota .tc S5000x128 32 [1] iota_S5000x128_d1_w32 (ix2 r s))).setWidth 32) = _
  rw [e1, e2]
  exact onehot_scalar (x1 (ix2 r 0)) s

/-! ## The tile product as a sum over the tile's rows -/

theorem lhs_tile_0 (i : S128x256.Idx) (q : dot_S5000x128_S5000x256_S128x256_0_0_1_1_n_n.contr.Idx) :
    (dot_S5000x128_S5000x256_S128x256_0_0_1_1_n_n.lhsIdx i q 0).val = (q ⟨0, by decide⟩).val :=
  dot_S5000x128_S5000x256_S128x256_0_0_1_1_n_n.lhsIdx_val_of_single rfl i q
theorem lhs_tile_1 (i : S128x256.Idx) (q : dot_S5000x128_S5000x256_S128x256_0_0_1_1_n_n.contr.Idx) :
    (dot_S5000x128_S5000x256_S128x256_0_0_1_1_n_n.lhsIdx i q 1).val = (i 0).val := by
  unfold DotDims.lhsIdx
  rw [dif_neg (show ¬(1 : Fin S5000x128.rank) ∈ dot_S5000x128_S5000x256_S128x256_0_0_1_1_n_n.lhsBatch by decide), dif_pos (show (1 : Fin S5000x128.rank) ∈ dot_S5000x128_S5000x256_S128x256_0_0_1_1_n_n.lhsNonContracting by decide)]
  rfl
theorem rhs_tile_0 (i : S128x256.Idx) (q : dot_S5000x128_S5000x256_S128x256_0_0_1_1_n_n.contr.Idx) :
    (dot_S5000x128_S5000x256_S128x256_0_0_1_1_n_n.rhsIdx i q 0).val = (q ⟨0, by decide⟩).val :=
  dot_S5000x128_S5000x256_S128x256_0_0_1_1_n_n.rhsIdx_val_of_single rfl i q
theorem rhs_tile_1 (i : S128x256.Idx) (q : dot_S5000x128_S5000x256_S128x256_0_0_1_1_n_n.contr.Idx) :
    (dot_S5000x128_S5000x256_S128x256_0_0_1_1_n_n.rhsIdx i q 1).val = (i 1).val := by
  unfold DotDims.rhsIdx
  rw [dif_neg (show ¬(1 : Fin S5000x256.rank) ∈ dot_S5000x128_S5000x256_S128x256_0_0_1_1_n_n.rhsBatch by decide), dif_pos (show (1 : Fin S5000x256.rank) ∈ dot_S5000x128_S5000x256_S128x256_0_0_1_1_n_n.rhsNonContracting by decide)]
  rfl

/-- The product that contracts the row axis of both operands, into the zero block: entry `(s, j)` is the sum over the
    tile's rows of the left operand at `(r, s)` times the right operand at `(r, j)`. -/
theorem tile_apply (l : FVec Ideal S5000x128 .bf16) (w : FVec Ideal S5000x256 .bf16) (s : Fin 128) (j : Fin 256) :
    matmul dot_S5000x128_S5000x256_S128x256_0_0_1_1_n_n none l w (constant (F := Ideal) S128x256 .f32 0x00000000#32) (ix2 s j)
      = ∑ r : Fin 5000, l (ix2 r s) * w (ix2 r j) := by
  simp only [matmul]
  rw [Ideal.matmul_constant_zero_apply, ← Equiv.sum_comp (contrEquiv1 dot_S5000x128_S5000x256_S128x256_0_0_1_1_n_n 5000 rfl rfl).symm]
  refine Finset.sum_congr rfl fun k _ => ?_
  have hk := contrEquiv1_symm_val dot_S5000x128_S5000x256_S128x256_0_0_1_1_n_n 5000 rfl rfl k
  have el : dot_S5000x128_S5000x256_S128x256_0_0_1_1_n_n.lhsIdx (ix2 s j) ((contrEquiv1 dot_S5000x128_S5000x256_S128x256_0_0_1_1_n_n 5000 rfl rfl).symm k) = ix2 k s := funext fun a => Fin.ext (by
    match a with
    | ⟨0, _⟩ => exact (lhs_tile_0 _ _).trans hk
    | ⟨1, _⟩ => exact lhs_tile_1 _ _)
  have er : dot_S5000x128_S5000x256_S128x256_0_0_1_1_n_n.rhsIdx (ix2 s j) ((contrEquiv1 dot_S5000x128_S5000x256_S128x256_0_0_1_1_n_n 5000 rfl rfl).symm k) = ix2 k j := funext fun a => Fin.ext (by
    match a with
    | ⟨0, _⟩ => exact (rhs_tile_0 _ _).trans hk
    | ⟨1, _⟩ => exact rhs_tile_1 _ _)
  rw [el, er]

/-! ## The body's three pure terms at an index -/

/-- The reset value is zero everywhere. -/
theorem reset_apply (s : Fin 128) (j : Fin 256) : (k0_pay1 (F := Ideal)) (ix2 s j) = 0 := by
  unfold k0_pay1
  refine (congrFun (shapeCast_self _ _) (ix2 s j)).trans ?_
  exact Ideal.ofBits_zero_f32

/-- The update adds, entry by entry, the tile's weighted row sum to the accumulator. -/
theorem update_apply (x0 : FVec Ideal S5000x256 .f32) (x1 : IVec S5000x1 32) (acc : FVec Ideal S128x256 .f32) (s : Fin 128) (j : Fin 256) :
    k0_pay2 (F := Ideal) x0 x1 acc (ix2 s j)
      = acc (ix2 s j) + ∑ r : Fin 5000, Cert.Hand.hot (x1 (ix2 r 0)) s.val * x0 (ix2 r j) := by
  unfold k0_pay2
  refine (congrFun (shapeCast_self _ _) (ix2 s j)).trans ?_
  refine (addf_apply _ _ (ix2 s j)).trans ?_
  refine congrArg (acc (ix2 s j) + ·) ?_
  refine (tile_apply _ _ s j).trans ?_
  refine Finset.sum_congr rfl fun r _ => ?_
  exact congrArg (· * x0 (ix2 r j)) (onehot_apply x1 r s)

/-- The copy into the output block puts entry `(s, j)` at `(0, s, j)`. -/
theorem copy_apply {F : FTy → Type} [FloatOps F] (v : Vec F S128x256 .f32) (s : Fin 128) (j : Fin 256) :
    k0_pay3 v (ix3 0 s j) = v (ix2 s j) := by
  unfold k0_pay3
  refine (shapeCast_addUnit_apply ![128, 256] v shapeCasts_S128x256_S1x128x256 (ix3 0 s j)).trans ?_
  exact congrArg v (funext fun a => match a with | ⟨0, _⟩ => rfl | ⟨1, _⟩ => rfl)

end Pool

end Cert.KernelIdeal.Val
end
-- ==== Proof.Val.PoolPieces.lean ====
/-
  The pooling pass: what each of its three cases leaves in the accumulator and in the output block, as the body's own
  pure terms of the blocks it loaded.  At a resetting point the accumulator is the update of the reset value; at every
  other point the update of what the point before left; at a half's last point the output block is that accumulator
  under a leading unit axis.
-/
import proofs.«421135_j50921132261525_3_alg».proof.Proof.FrKernelIdeal.R0Data
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable {F : FTy → Type} [FloatOps F]

namespace Pool

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the body's pure terms -/

/-- A resetting point: the accumulator is stored as zero, read back, and stored again with the tile added. -/
theorem acc_reset (c : Dev nD) (i : grid0.Coords) (a2 : Memref sig .tc .vmem S5000x256 .f32) (h2 : a2.IsWhole)
    (a3 : Memref sig .tc .vmem S5000x1 .i32) (h3 : a3.IsWhole) (a4 : Memref sig .tc .vmem S1x128x256 .f32) (h4 : a4.IsWhole)
    (a5 : Memref sig .tc .vmem S128x256 .f32) (h5 : a5.IsWhole) (hc0 : cond0_0 i) (hc1 : ¬cond0_1 i)
    (x0 : Vec F S5000x256 .f32) (x1 : Vec F S5000x1 .i32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x256) hz2, View.readCov_unit_zero (S := S128x256) _ hz2]
  simp only [View.readAt_eq_ld, h2.read_unread, h3.read_unread, View.ld_unit_zero (S := S5000x256) hz2, View.ld_unit_zero (S := S5000x1) hz2]

/-- A middle point: the accumulator the point before left, with the tile added. -/
theorem acc_add (c : Dev nD) (i : grid0.Coords) (a2 : Memref sig .tc .vmem S5000x256 .f32) (h2 : a2.IsWhole)
    (a3 : Memref sig .tc .vmem S5000x1 .i32) (h3 : a3.IsWhole) (a4 : Memref sig .tc .vmem S1x128x256 .f32) (h4 : a4.IsWhole)
    (a5 : Memref sig .tc .vmem S128x256 .f32) (h5 : a5.IsWhole) (hc0 : ¬cond0_0 i) (hc1 : ¬cond0_1 i)
    (x0 : Vec F S5000x256 .f32) (x1 : Vec F S5000x1 .i32) (xs0 : Vec F S128x256 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S128x256) hz2]
  simp only [View.readAt_eq_ld, h2.read_unread, h3.read_unread, h5.read_unread, View.ld_unit_zero (S := S5000x256) hz2, View.ld_unit_zero (S := S5000x1) hz2, View.ld_unit_zero (S := S128x256) hz2]

/-- A half's last point: the same in the accumulator, -/
theorem acc_last (c : Dev nD) (i : grid0.Coords) (a2 : Memref sig .tc .vmem S5000x256 .f32) (h2 : a2.IsWhole)
    (a3 : Memref sig .tc .vmem S5000x1 .i32) (h3 : a3.IsWhole) (a4 : Memref sig .tc .vmem S1x128x256 .f32) (h4 : a4.IsWhole)
    (a5 : Memref sig .tc .vmem S128x256 .f32) (h5 : a5.IsWhole) (hc0 : ¬cond0_0 i) (hc1 : cond0_1 i)
    (x0 : Vec F S5000x256 .f32) (x1 : Vec F S5000x1 .i32) (xs0 : Vec F S128x256 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S128x256) hz2]
  simp only [View.readAt_eq_ld, h2.read_unread, h3.read_unread, h5.read_unread, View.ld_unit_zero (S := S5000x256) hz2, View.ld_unit_zero (S := S5000x1) hz2, View.ld_unit_zero (S := S128x256) hz2]

/-- and the output block holds that accumulator under a leading unit axis. -/
theorem out_last (c : Dev nD) (i : grid0.Coords) (a2 : Memref sig .tc .vmem S5000x256 .f32) (h2 : a2.IsWhole)
    (a3 : Memref sig .tc .vmem S5000x1 .i32) (h3 : a3.IsWhole) (a4 : Memref sig .tc .vmem S1x128x256 .f32) (h4 : a4.IsWhole)
    (a5 : Memref sig .tc .vmem S128x256 .f32) (h5 : a5.IsWhole) (hc0 : ¬cond0_0 i) (hc1 : cond0_1 i)
    (x0 : Vec F S5000x256 .f32) (x1 : Vec F S5000x1 .i32) (xs0 : Vec F S128x256 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x128x256) hz3]
  simp only [View.readCov_unit_zero (S := S128x256) _ hz2, View.readAt_eq_ld, h2.read_unread, h3.read_unread, h5.read_unread, View.ld_unit_zero (S := S5000x256) hz2, View.ld_unit_zero (S := S5000x1) hz2, View.ld_unit_zero (S := S128x256) hz2]

end Pool

end Cert.KernelIdeal.Val
end
-- ==== Proof.Val.Pool.lean ====
/-
  The pooling pass's result array.

  The grid is 2 x 100: point t loads tile t (rows 5000 t .. 5000 t + 4999) of the rows and of their segment words.  The
  accumulator is reset at a half's first point and at every point gains the tile's contribution, whose entry (s, j) is the
  sum over the tile's rows of the row's one-hot weight for segment s times the row's entry j.  So after point n it holds
  the contributions of the tiles 100 (n / 100) .. n of its half (by induction on the point), and at a half's last point
  the whole half's total is copied into block n / 100 of the 2 x 128 x 256 output, which the two write-backs cover.
-/
import proofs.«421135_j50921132261525_3_alg».proof.Proof.Val.PoolPay
import proofs.«421135_j50921132261525_3_alg».proof.Proof.Val.PoolPieces

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace Pool
/-! ## The arrays and the blocks, at their literal types -/

/-- The rows, 1000000 x 256. -/
abbrev rowsArr (c : Dev nD) : FVec Ideal S1000000x256 .f32 := V c main_arg0
/-- The segment words, one per row, as a column. -/
abbrev wordsArr (c : Dev nD) : IVec S1000000x1 32 := V c main_v0
/-- The tile of rows point `t` loads. -/
abbrev rowsBlk (c : Dev nD) (t : Fin cfg0.N) : FVec Ideal S5000x256 .f32 := iblk0 V c 0 t
/-- The tile's segment words. -/
abbrev wordsBlk (c : Dev nD) (t : Fin cfg0.N) : IVec S5000x1 32 := iblk0 V c 1 t

/-- The index maps over the grid: point `t` loads tile `t` of both inputs, and writes block `t / 100` of the output. -/
theorem tile_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 100 ∧ win0_2.index t (1 : Fin 3) = 0 ∧ win0_2.index t (2 : Fin 3) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 100 ∧ win0_2.index t (1 : Fin 3) = 0 ∧ win0_2.index t (2 : Fin 3) = 0)

/-- Row `r` of tile `t` is row `5000 t + r` of the array. -/
theorem rowsBlk_apply (c : Dev nD) (t : Fin cfg0.N) (r : Fin 5000) (j : Fin 256) (h : 5000 * t.val + r.val < 1000000) :
    rowsBlk V c t (ix2 r j) = rowsArr V c (ix2 ⟨5000 * t.val + r.val, h⟩ j) := by
  obtain ⟨e0, e1, -⟩ := tile_index t
  unfold rowsBlk iblk0
  rw [View.read_apply]
  show V c main_arg0 _ = V c main_arg0 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 256 + 1 * j.val = j.val; rw [e1]; omega

/-- The same for the words. -/
theorem wordsBlk_apply (c : Dev nD) (t : Fin cfg0.N) (r : Fin 5000) (h : 5000 * t.val + r.val < 1000000) :
    wordsBlk V c t (ix2 r 0) = wordsArr V c (ix2 ⟨5000 * t.val + r.val, h⟩ 0) := by
  obtain ⟨-, -, e0, e1, -⟩ := tile_index t
  unfold wordsBlk iblk0
  rw [View.read_apply]
  show V c main_v0 _ = V c main_v0 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 1 + 1 * (0 : Fin 1).val = (0 : Fin 1).val; rw [e1]; rfl

/-! ## A tile's contribution, and the accumulator after each point -/

/-- Tile `T`'s contribution to entry `(s, j)`: the sum over its 5000 rows of the row's weight for `s` times the row's
    entry `j` (zero past the last tile, so that it is a function of every natural number). -/
def tileSum (c : Dev nD) (s : ℕ) (j : Fin 256) (T : ℕ) : EReal :=
  if hT : T < 200 then
    ∑ r : Fin 5000, Cert.Hand.hot (wordsArr V c (ix2 ⟨5000 * T + r.val, by have := r.isLt; omega⟩ 0)) s
      * rowsArr V c (ix2 ⟨5000 * T + r.val, by have := r.isLt; omega⟩ j)
  else 0

/-- At point `t` the update adds tile `t`'s contribution. -/
theorem update_at (c : Dev nD) (t : Fin cfg0.N) (acc : FVec Ideal S128x256 .f32) (s : Fin 128) (j : Fin 256) :
    k0_pay2 (F := Ideal) (rowsBlk V c t) (wordsBlk V c t) acc (ix2 s j) = acc (ix2 s j) + tileSum V c s.val j t.val := by
  have hN : t.val < 200 := lt_of_lt_of_eq t.isLt (show cfg0.N = 200 from N_0)
  refine (update_apply (rowsBlk V c t) (wordsBlk V c t) acc s j).trans ?_
  refine congrArg (acc (ix2 s j) + ·) ?_
  unfold tileSum
  rw [dif_pos hN]
  refine Finset.sum_congr rfl fun r _ => ?_
  have hr := r.isLt
  rw [wordsBlk_apply V c t r (by omega), rowsBlk_apply V c t r j (by omega)]

/-- The accumulator after point `n`, at its literal type. -/
abbrev accAfter (c : Dev nD) (n : ℕ) (hn : n < cfg0.N) : FVec Ideal S128x256 .f32 := (outsAt0 V c n hn).2
/-- The output block's buffer after point `n`, at its literal type. -/
abbrev outAfter (c : Dev nD) (n : ℕ) (hn : n < cfg0.N) : FVec Ideal S1x128x256 .f32 := (outsAt0 V c n hn).1

/-- A half's first point leaves its tile's contribution alone. -/
theorem acc_first (c : Dev nD) (t : Fin cfg0.N) (h0 : t.val % 100 = 0) (h1 : ¬t.val % 100 = 99) (s : Fin 128) (j : Fin 256) :
    accAfter V c t.val t.isLt (ix2 s j) = tileSum V c s.val j t.val := by
  unfold accAfter
  rw [outsAt0_A V c t h0 h1]
  dsimp only
  refine (congrFun (acc_reset (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk0 V c 0 t) (iblk0 V c 1 t)) (ix2 s j)).trans ?_
  refine (update_at V c t (k0_pay1 (F := Ideal)) s j).trans ?_
  rw [reset_apply, zero_add]

/-- A middle point adds its tile's contribution to what the point before left. -/
theorem acc_middle (c : Dev nD) (t : Fin cfg0.N) (h0 : ¬t.val % 100 = 0) (h1 : ¬t.val % 100 = 99) (s : Fin 128) (j : Fin 256) :
    accAfter V c t.val t.isLt (ix2 s j)
      = accAfter V c (t.val - 1) (Nat.lt_of_le_of_lt (Nat.sub_le _ _) t.isLt) (ix2 s j) + tileSum V c s.val j t.val := by
  unfold accAfter
  rw [outsAt0_B V c t h0 h1]
  dsimp only
  refine (congrFun (acc_add (F := Ideal) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk0 V c 0 t) (iblk0 V c 1 t)
    (outsAt0 V c (t.val - 1) (Nat.lt_of_le_of_lt (Nat.sub_le _ _) t.isLt)).2) (ix2 s j)).trans ?_
  exact update_at V c t (outsAt0 V c (t.val - 1) (Nat.lt_of_le_of_lt (Nat.sub_le _ _) t.isLt)).2 s j

/-- A half's last point does the same, -/
theorem acc_final (c : Dev nD) (t : Fin cfg0.N) (h0 : ¬t.val % 100 = 0) (h1 : t.val % 100 = 99) (s : Fin 128) (j : Fin 256) :
    accAfter V c t.val t.isLt (ix2 s j)
      = accAfter V c (t.val - 1) (Nat.lt_of_le_of_lt (Nat.sub_le _ _) t.isLt) (ix2 s j) + tileSum V c s.val j t.val := by
  unfold accAfter
  rw [outsAt0_C V c t h0 h1]
  dsimp only
  refine (congrFun (acc_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk0 V c 0 t) (iblk0 V c 1 t)
    (outsAt0 V c (t.val - 1) (Nat.lt_of_le_of_lt (Nat.sub_le _ _) t.isLt)).2) (ix2 s j)).trans ?_
  exact update_at V c t (outsAt0 V c (t.val - 1) (Nat.lt_of_le_of_lt (Nat.sub_le _ _) t.isLt)).2 s j

/-- and the output block's buffer then holds the accumulator, entry `(s, j)` at `(0, s, j)`. -/
theorem out_final (c : Dev nD) (t : Fin cfg0.N) (h0 : ¬t.val % 100 = 0) (h1 : t.val % 100 = 99) (s : Fin 128) (j : Fin 256) :
    outAfter V c t.val t.isLt (ix3 0 s j) = accAfter V c t.val t.isLt (ix2 s j) := by
  unfold outAfter accAfter
  rw [outsAt0_C V c t h0 h1]
  dsimp only
  refine (congrFun (out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk0 V c 0 t) (iblk0 V c 1 t)
    (outsAt0 V c (t.val - 1) (Nat.lt_of_le_of_lt (Nat.sub_le _ _) t.isLt)).2) (ix3 0 s j)).trans ?_
  refine (copy_apply _ s j).trans ?_
  exact (congrFun (acc_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk0 V c 0 t) (iblk0 V c 1 t)
    (outsAt0 V c (t.val - 1) (Nat.lt_of_le_of_lt (Nat.sub_le _ _) t.isLt)).2) (ix2 s j)).symm

/-! ## The partial sums of a half -/

/-- At a half's first point the partial sum is the one tile. -/
theorem partial_first (f : ℕ → EReal) (n : ℕ) (h0 : n % 100 = 0) :
    ∑ u ∈ Finset.range (n % 100 + 1), f (100 * (n / 100) + u) = f n := by
  rw [h0, Finset.sum_range_one]
  exact congrArg f (by omega)

/-- Past it, the partial sum grows by the point's tile. -/
theorem partial_next (f : ℕ → EReal) (n : ℕ) (h0 : ¬(n + 1) % 100 = 0) :
    ∑ u ∈ Finset.range ((n + 1) % 100 + 1), f (100 * ((n + 1) / 100) + u)
      = (∑ u ∈ Finset.range (n % 100 + 1), f (100 * (n / 100) + u)) + f (n + 1) := by
  rw [Finset.sum_range_succ, show (n + 1) % 100 = n % 100 + 1 by omega, show (n + 1) / 100 = n / 100 by omega]
  exact congrArg (_ + f ·) (by omega)

/-- After point `n` the accumulator holds the contributions of its half's tiles up to `n`. -/
theorem accAfter_eq (c : Dev nD) (s : Fin 128) (j : Fin 256) : ∀ (n : ℕ) (hn : n < cfg0.N),
    accAfter V c n hn (ix2 s j) = ∑ u ∈ Finset.range (n % 100 + 1), tileSum V c s.val j (100 * (n / 100) + u)
  | 0, hn => (acc_first V c ⟨0, hn⟩ (Nat.zero_mod _) (by show ¬0 % 100 = 99; decide) s j).trans (partial_first _ 0 (Nat.zero_mod _)).symm
  | n + 1, hn => by
    by_cases h0 : (n + 1) % 100 = 0
    · have h1 : ¬(n + 1) % 100 = 99 := by omega
      exact (acc_first V c ⟨n + 1, hn⟩ h0 h1 s j).trans (partial_first _ (n + 1) h0).symm
    · rw [partial_next _ n h0, ← accAfter_eq c s j n (Nat.lt_of_succ_lt hn)]
      by_cases h1 : (n + 1) % 100 = 99
      · exact acc_final V c ⟨n + 1, hn⟩ h0 h1 s j
      · exact acc_middle V c ⟨n + 1, hn⟩ h0 h1 s j

/-! ## The output array -/

/-- A half's total for entry `(s, j)`: the contributions of all 100 tiles of half `h`. -/
def halfSum (c : Dev nD) (h : ℕ) (s : ℕ) (j : Fin 256) : EReal :=
  ∑ u ∈ Finset.range 100, tileSum V c s j (100 * h + u)

/-- The output array as one function of its index: entry `(h, s, j)` is half `h`'s total for `(s, j)`. -/
def pooled (c : Dev nD) : FVec Ideal S2x128x256 .f32 :=
  fun i => halfSum V c (i 0).val (i 1).val ⟨(i 2).val, (i 2).isLt⟩

theorem pooled_of_coords (c : Dev nD) (x : S2x128x256.Idx) (h s : ℕ) (j : Fin 256)
    (e0 : (x 0).val = h) (e1 : (x 1).val = s) (e2 : (x 2).val = j.val) : pooled V c x = halfSum V c h s j := by
  unfold pooled
  subst e0 e1
  exact congrArg (halfSum V c _ _) (Fin.ext e2)

/-- After a half's last point the output block's buffer holds the half's totals. -/
theorem out_half (c : Dev nD) (t : Fin cfg0.N) (h99 : t.val % 100 = 99) (s : Fin 128) (j : Fin 256) :
    outAfter V c t.val t.isLt (ix3 0 s j) = halfSum V c (t.val / 100) s.val j := by
  have h0 : ¬t.val % 100 = 0 := by omega
  rw [out_final V c t h0 h99 s j, accAfter_eq V c s j t.val t.isLt, h99]
  rfl

/-- What a half's last point writes back is its block of `pooled`. -/
theorem flushed_pooled (c : Dev nD) (t : Fin cfg0.N) (hf : (cfg0.win 2).flush t = true) :
    (dat0 V c).flushed 2 t = ((cfg0.win 2).blk t).view.read (Elt Ideal) (pooled V c) := by
  have h99 : t.val % 100 = 99 := (flush0_2 t).mp hf
  obtain ⟨-, -, -, -, e0, e1, e2⟩ := tile_index t
  show (cfg0.win 2).cut (grid0.coords t) ((dat0 V c).after 2 t) = _
  rw [after0_2]
  refine funext fun (y : S1x128x256.Idx) => ?_
  obtain ⟨a, s, j, rfl⟩ : ∃ (a : Fin 1) (s : Fin 128) (j : Fin 256), y = ix3 a s j := ⟨y 0, y 1, y 2, eq_ix3 y⟩
  obtain rfl : a = 0 := Subsingleton.elim _ _
  show outAfter V c t.val t.isLt (ix3 0 s j) = pooled V c (((cfg0.win 2).blk t).view.emb (ix3 0 s j))
  rw [out_half V c t h99 s j]
  refine (pooled_of_coords V c _ (t.val / 100) s.val j ?_ ?_ ?_).symm
  · show win0_2.index t (0 : Fin 3) * 1 + 1 * (0 : Fin 1).val = t.val / 100
    rw [e0]; simp
  · show win0_2.index t (1 : Fin 3) * 128 + 1 * s.val = s.val
    rw [e1]; omega
  · show win0_2.index t (2 : Fin 3) * 256 + 1 * j.val = j.val
    rw [e2]; omega

/-- An index of the output array is in point `t`'s block iff each coordinate is in the block's range on its axis. -/
theorem mem_outBlk (t : Fin cfg0.N) (i : S2x128x256.Idx) :
    i ∈ ((cfg0.win 2).blk t).view.set ↔ ∀ a : Fin 3, win0_2.index t a * S1x128x256.size a ≤ (i a).val ∧ (i a).val < win0_2.index t a * S1x128x256.size a + S1x128x256.size a := by
  show i ∈ ((View.whole main_v1).slice (win0_2.rect t)).set ↔ _
  rw [View.set_slice_whole, Rect.mem_set_unit]
  exact Iff.rfl

/-- The two write-backs (after points 99 and 199) cover the output array, so it ends holding `pooled`. -/
theorem pooled_final (c : Dev nD) : (dat0 V c).arrAt 2 cfg0.N = pooled V c :=
  (dat0 V c).arrAt_eq_of_cover 2 (pooled V c) (flushed_pooled V c) fun i => by
    have hi0 : (i 0).val < 2 := (i 0).isLt
    have hi1 : (i 1).val < 128 := (i 1).isLt
    have hi2 : (i 2).val < 256 := (i 2).isLt
    have hN : cfg0.N = 200 := N_0
    obtain ⟨t, ht⟩ : ∃ t : Fin cfg0.N, t.val = 100 * (i 0).val + 99 := ⟨⟨100 * (i 0).val + 99, by rw [hN]; omega⟩, rfl⟩
    obtain ⟨-, -, -, -, e0, e1, e2⟩ := tile_index t
    refine ⟨t, (flush0_2 t).mpr (by omega), ?_⟩
    rw [mem_outBlk]
    intro a
    match a with
    | ⟨0, _⟩ => show win0_2.index t (0 : Fin 3) * 1 ≤ (i 0).val ∧ (i 0).val < win0_2.index t (0 : Fin 3) * 1 + 1
                rw [e0]; omega
    | ⟨1, _⟩ => show win0_2.index t (1 : Fin 3) * 128 ≤ (i 1).val ∧ (i 1).val < win0_2.index t (1 : Fin 3) * 128 + 128
                rw [e1]; omega
    | ⟨2, _⟩ => show win0_2.index t (2 : Fin 3) * 256 ≤ (i 2).val ∧ (i 2).val < win0_2.index t (2 : Fin 3) * 256 + 256
                rw [e2]; omega

/-- THE POOLING PASS'S RESULT: entry `(h, s, j)` of the output array is the sum, over the 100 tiles of half `h` and the
    5000 rows of each, of the row's weight for segment `s` times the row's entry `j`. -/
theorem result (c : Dev nD) (h : Fin 2) (s : Fin 128) (j : Fin 256) :
    ((dat0 V c).arrAt 2 cfg0.N : FVec Ideal S2x128x256 .f32) (ix3 h s j)
      = ∑ t : Fin 100, ∑ r : Fin 5000,
          Cert.Hand.hot ((V c main_v0 : IVec S1000000x1 32) (ix2 ⟨5000 * (100 * h.val + t.val) + r.val, by have := h.isLt; have := t.isLt; have := r.isLt; omega⟩ 0)) s.val
            * (V c main_arg0 : FVec Ideal S1000000x256 .f32) (ix2 ⟨5000 * (100 * h.val + t.val) + r.val, by have := h.isLt; have := t.isLt; have := r.isLt; omega⟩ j) := by
  rw [pooled_final V c]
  show halfSum V c h.val s.val j = _
  unfold halfSum
  rw [Finset.sum_range]
  refine Finset.sum_congr rfl fun t _ => ?_
  have ht := t.isLt
  have hh := h.isLt
  unfold tileSum
  rw [dif_pos (by omega)]

end Pool

/-- THE POOLING PASS'S RESULT, under the name the assembly cites. -/
theorem pool_result (c : Dev nD) (h : Fin 2) (s : Fin 128) (j : Fin 256) :
    ((dat0 V c).arrAt 2 cfg0.N : FVec Ideal S2x128x256 .f32) (ix3 h s j)
      = ∑ t : Fin 100, ∑ r : Fin 5000,
          Cert.Hand.hot ((V c main_v0 : IVec S1000000x1 32) (ix2 ⟨5000 * (100 * h.val + t.val) + r.val, by have := h.isLt; have := t.isLt; have := r.isLt; omega⟩ 0)) s.val
            * (V c main_arg0 : FVec Ideal S1000000x256 .f32) (ix2 ⟨5000 * (100 * h.val + t.val) + r.val, by have := h.isLt; have := t.isLt; have := r.isLt; omega⟩ j) :=
  Pool.result V c h s j

end Cert.KernelIdeal.Val
end
-- ==== Proof.Val.Scale.lean ====
/-
  The scaling pass read as a value.  At every one of the 200 points the body multiplies a tile of 5000 rows of `feats`,
  entry by entry, by the product of the tile's one-hot matrix (row `r`, column `s`: is row `r`'s segment word `s`?)
  with the padded 128-row gate table.  So entry `(n, j)` of the output is
  `feats (n, j) * ∑ s < 128, hot (word n) s * table (s, j)`: the tiles are disjoint blocks of rows, each written back
  once, and together they cover the array.
-/
import proofs.«421135_j50921132261525_3_alg».proof.Proof.FrKernelIdeal.R1
import proofs.«421135_j50921132261525_3_alg».proof.Proof.Spec
import Idealize.ShloMosaic.Lib.Pipeline.Value
import Idealize.ShloMosaic.Lib.ValueIdx
import Idealize.ShloMosaic.PureOps.Ideal.Laws
import Idealize.ShloMosaic.Lib.Tactic
import Idealize.ShloMosaic.Lib.StableHlo.Predicate

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.Tactic
open Idealize.ShloMosaic.Pipeline (Dat)

variable {F : FTy → Type} [FloatOps F]

/-! ## What the body leaves in the output's buffer -/

/-- The origin of a rank-2 block. -/
theorem origin2 : (![0, 0] : Fin 2 → Nat) = fun _ => 0 := funext fun a => by fin_cases a <;> rfl

/-- The body stores ONE piece, the whole block, so what it leaves is the payload of the three blocks it loaded. -/
theorem out1_3_eq (c : Dev nD) (i : grid1.Coords) (a1 : Memref sig .tc .vmem S5000x256 .f32) (h1 : a1.IsWhole) (a2 : Memref sig .tc .vmem S5000x1 .i32) (h2 : a2.IsWhole) (a3 : Memref sig .tc .vmem S128x256 .bf16) (h3 : a3.IsWhole) (a4 : Memref sig .tc .vmem S5000x256 .f32) (h4 : a4.IsWhole)
    (x0 : Vec F S5000x256 .f32) (x1 : Vec F S5000x1 .i32) (x2 : Vec F S128x256 .bf16) :
    out1_3 c i a1 h1 a2 h2 a3 h3 a4 h4 x0 x1 x2 = k1_pay1 x0 x1 x2 := by
  unfold out1_3
  rw [View.read_writes_eq_canon _ _ _ (cover1_3 c i a1 h1 a2 h2 a3 h3 a4 h4 x0 x1 x2)]
  unfold kernelRun1
  dsimp only
  sl_unfold_words
  rw [View.canon_unit_zero origin2]
  simp only [View.readAt_eq_ld, h1.read_unread, h2.read_unread, h3.read_unread,
    View.ld_unit_zero (S := S5000x256) origin2, View.ld_unit_zero (S := S5000x1) origin2,
    View.ld_unit_zero (S := S128x256) origin2, shapeCast_self]

/-! ## The payload at an index -/

/-- A word is the word of a small count exactly when it reads, signed, as that count. -/
theorem word_eq_ofNat_iff (b : BitVec 32) (s : ℕ) (hs : s < 128) : b = BitVec.ofNat 32 s ↔ b.toInt = (s : ℤ) := by
  constructor
  · rintro rfl
    exact StableHlo.Predicate.toInt_ofNat_small s (by omega)
  · intro h
    apply BitVec.eq_of_toInt_eq
    rw [h, StableHlo.Predicate.toInt_ofNat_small s (by omega)]

/-- A bit widened to a word and converted, signed and exactly, is `1` when set and `0` when clear. -/
theorem bit_value (p : BitVec 1) : (FloatOps.sitofp .f32 (p.setWidth 32) : Ideal .f32) = if p = 1#1 then 1 else 0 := by
  rcases BitVec.eq_zero_or_eq_one p with rfl | rfl
  · show ((((0#1 : BitVec 1).setWidth 32).toInt : ℝ) : EReal) = _
    rw [if_neg (by decide), show ((0#1 : BitVec 1).setWidth 32).toInt = 0 from by decide, Int.cast_zero, EReal.coe_zero]
  · show ((((1#1 : BitVec 1).setWidth 32).toInt : ℝ) : EReal) = _
    rw [if_pos rfl, show ((1#1 : BitVec 1).setWidth 32).toInt = 1 from by decide, Int.cast_one, EReal.coe_one]

/-- A comparison of words at an index compares the elements. -/
theorem cmpi_apply {s : Shape} {w : Nat} (p : CmpIPredicate) (x y : IVec s w) (i : s.Idx) : cmpi p x y i = IntOp.cmpi p (x i) (y i) := rfl

/-- The one-hot matrix of a tile's segment words: entry `(r, s)` compares row `r`'s word with `s`, so it is the
    one-hot weight of that word against segment `s`. -/
abbrev onehot (w : IVec S5000x1 32) : FVec Ideal S5000x128 .bf16 :=
  truncf .bf16 (sitofp .f32 (extui 32 (cmpi .eq (broadcastTo S5000x128 (shapeCast S5000x1 w shapeCasts_S5000x1_S5000x1) broadcasts_S5000x1_S5000x128)
    (iota .tc S5000x128 32 [1] iota_S5000x128_d1_w32)) natLt_1_32) : FVec Ideal S5000x128 .f32) bitsLt_bf16_f32

theorem onehot_apply (w : IVec S5000x1 32) (r : Fin 5000) (s : Fin 128) :
    onehot w (ix2 r s) = Cert.Hand.hot (w (ix2 r 0)) s.val := by
  have hb : broadcastTo S5000x128 (shapeCast S5000x1 w shapeCasts_S5000x1_S5000x1) broadcasts_S5000x1_S5000x128 (ix2 r s) = w (ix2 r 0) := by
    rw [shapeCast_self]
    refine broadcastTo_apply w _ (ix2 r s) (ix2 r 0) (fun a => ?_)
    match a with
    | ⟨0, _⟩ => rfl
    | ⟨1, _⟩ => rfl
  have hi : iota .tc S5000x128 32 [1] iota_S5000x128_d1_w32 (ix2 r s) = BitVec.ofNat 32 s.val :=
    iota_single_apply .tc S5000x128 32 1 iota_S5000x128_d1_w32 (ix2 r s)
  unfold onehot
  rw [truncf_apply, sitofp_apply, extui_apply, cmpi_apply, hb, hi, bit_value]
  unfold Cert.Hand.hot
  exact if_congr (StableHlo.Predicate.cmpi_eq_iff.trans (word_eq_ofNat_iff _ _ s.isLt)) rfl rfl

/-! The product's dimension numbers contract axis 1 of the one-hot matrix with axis 0 of the table: at output index
    `(r, j)` and contraction index `s` the operands are read at `(r, s)` and `(s, j)`. -/

theorem lhs_axis0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_axis1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_axis0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_axis1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product into the zero accumulator, read at `(r, j)`: the sum over the 128 table rows. -/
theorem matmul_rows (A : FVec Ideal S5000x128 .bf16) (B : FVec Ideal S128x256 .bf16) (r : Fin 5000) (j : Fin 256) :
    matmul dot_S5000x128_S128x256_S5000x256_1_0_0_1_n_n none A B (constant (F := Ideal) S5000x256 .f32 0x00000000#32) (ix2 r j)
      = ∑ s : Fin 128, A (ix2 r s) * B (ix2 s j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 r j) ((contrEquiv1 dot_S5000x128_S128x256_S5000x256_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x256_S5000x256_1_0_0_1_n_n.rhsIdx (ix2 r j) ((contrEquiv1 dot_S5000x128_S128x256_S5000x256_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The body's payload at `(r, j)`: the row's entry times the row's one-hot weights against the table's column `j`. -/
theorem payload_apply (x0 : FVec Ideal S5000x256 .f32) (w : IVec S5000x1 32) (y : FVec Ideal S128x256 .bf16) (r : Fin 5000) (j : Fin 256) :
    k1_pay1 (F := Ideal) x0 w y (ix2 r j) = x0 (ix2 r j) * ∑ s : Fin 128, Cert.Hand.hot (w (ix2 r 0)) s.val * y (ix2 s j) := by
  unfold k1_pay1
  show x0 (ix2 r j) * matmul dot_S5000x128_S128x256_S5000x256_1_0_0_1_n_n none (onehot w) (shapeCast S128x256 y shapeCasts_S128x256_S128x256) (constant (F := Ideal) S5000x256 .f32 0x00000000#32) (ix2 r j) = _
  refine congrArg (x0 (ix2 r j) * ·) ((matmul_rows _ _ r j).trans (Finset.sum_congr rfl fun s _ => ?_))
  rw [shapeCast_self]
  exact congrArg (· * y (ix2 s j)) (onehot_apply w r s)

/-! ## From blocks to the array -/

/-- Every row of `feats` scaled, entry by entry, by the one-hot combination of the 128 table rows: the table row its
    segment word selects when the word, read signed, is below 128, and zero otherwise. -/
def scaledRows (feats : FVec Ideal S1000000x256 .f32) (words : IVec S1000000x1 32) (table : FVec Ideal S128x256 .bf16) :
    FVec Ideal S1000000x256 .f32 :=
  fun i => feats i * ∑ s : Fin 128, Cert.Hand.hot (words (ix2 ⟨(i 0).val, idx2_lt0 i⟩ 0)) s.val * table (ix2 s ⟨(i 1).val, idx2_lt1 i⟩)

theorem scaledRows_apply (feats : FVec Ideal S1000000x256 .f32) (words : IVec S1000000x1 32) (table : FVec Ideal S128x256 .bf16)
    (n : Fin 1000000) (j : Fin 256) :
    scaledRows feats words table (ix2 n j) = feats (ix2 n j) * ∑ s : Fin 128, Cert.Hand.hot (words (ix2 n 0)) s.val * table (ix2 s j) := rfl

/-- The index maps over the grid: tile `t` of the rows, of the words and of the output is block `(t, 0)`; the table
    is block `(0, 0)` at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Array
variable (V : (c : Dev nD) → (b : Ref sig .tc) → Buf (Elt Ideal) ((c : Thread nD τ).loc b))

/-- The arrays the region reads, as it finds them, -/
abbrev featsArr (c : Dev nD) : FVec Ideal S1000000x256 .f32 := V c main_arg0
abbrev wordsArr (c : Dev nD) : IVec S1000000x1 32 := V c main_v0
abbrev tableArr (c : Dev nD) : FVec Ideal S128x256 .bf16 := V c main_v35
/-- and their blocks at point `t`. -/
abbrev featsBlk (c : Dev nD) (t : Fin cfg1.N) : FVec Ideal S5000x256 .f32 := iblk1 V c 0 t
abbrev wordsBlk (c : Dev nD) (t : Fin cfg1.N) : IVec S5000x1 32 := iblk1 V c 1 t
abbrev tableBlk (c : Dev nD) (t : Fin cfg1.N) : FVec Ideal S128x256 .bf16 := iblk1 V c 2 t

/-- Row `r` of tile `t` is row `5000 t + r` of `feats`, -/
theorem featsBlk_apply (c : Dev nD) (t : Fin cfg1.N) (r : Fin 5000) (j : Fin 256) (h : 5000 * t.val + r.val < 1000000) :
    featsBlk V c t (ix2 r j) = featsArr V c (ix2 ⟨5000 * t.val + r.val, h⟩ j) := by
  obtain ⟨e0, e1, -⟩ := index_facts t
  show V c main_arg0 (((cfg1.win 0).blk t).view.emb (ix2 r j)) = V c main_arg0 (ix2 ⟨5000 * t.val + r.val, h⟩ j)
  refine congrArg (V c main_arg0) (funext fun a => Fin.ext ?_)
  match a with
  | ⟨0, _⟩ => show win1_0.index t (0 : Fin 2) * 5000 + 1 * r.val = 5000 * t.val + r.val; omega
  | ⟨1, _⟩ => show win1_0.index t (1 : Fin 2) * 256 + 1 * j.val = j.val; omega

/-- its segment word is word `5000 t + r`, -/
theorem wordsBlk_apply (c : Dev nD) (t : Fin cfg1.N) (r : Fin 5000) (h : 5000 * t.val + r.val < 1000000) :
    wordsBlk V c t (ix2 r 0) = wordsArr V c (ix2 ⟨5000 * t.val + r.val, h⟩ 0) := by
  obtain ⟨-, -, e0, e1, -⟩ := index_facts t
  show V c main_v0 (((cfg1.win 1).blk t).view.emb (ix2 r 0)) = V c main_v0 (ix2 ⟨5000 * t.val + r.val, h⟩ 0)
  refine congrArg (V c main_v0) (funext fun a => Fin.ext ?_)
  match a with
  | ⟨0, _⟩ => show win1_1.index t (0 : Fin 2) * 5000 + 1 * r.val = 5000 * t.val + r.val; omega
  | ⟨1, _⟩ => show win1_1.index t (1 : Fin 2) * 1 + 1 * 0 = 0; omega

/-- and the table's block is the table. -/
theorem tableBlk_apply (c : Dev nD) (t : Fin cfg1.N) (s : Fin 128) (j : Fin 256) :
    tableBlk V c t (ix2 s j) = tableArr V c (ix2 s j) := by
  obtain ⟨-, -, -, -, e0, e1, -⟩ := index_facts t
  show V c main_v35 (((cfg1.win 2).blk t).view.emb (ix2 s j)) = V c main_v35 (ix2 s j)
  refine congrArg (V c main_v35) (funext fun a => Fin.ext ?_)
  match a with
  | ⟨0, _⟩ => show win1_2.index t (0 : Fin 2) * 128 + 1 * s.val = s.val; omega
  | ⟨1, _⟩ => show win1_2.index t (1 : Fin 2) * 256 + 1 * j.val = j.val; omega

end Array

section Final
variable (V : (c : Dev nD) → (b : Ref sig .tc) → Buf (Elt Ideal) ((c : Thread nD τ).loc b))

/-- What the body stores at point `t`, entry by entry: the scaled rows read at the entry's place in the array. -/
theorem tile_value (c : Dev nD) (t : Fin cfg1.N) (y : S5000x256.Idx) :
    k1_pay1 (F := Ideal) (featsBlk V c t) (wordsBlk V c t) (tableBlk V c t) y
      = scaledRows (featsArr V c) (wordsArr V c) (tableArr V c) (((cfg1.win 3).blk t).view.emb y) := by
  obtain ⟨r, j, rfl⟩ : ∃ (r : Fin 5000) (j : Fin 256), y = ix2 r j := ⟨y 0, y 1, eq_ix2 y⟩
  have hN : grid1.N = 200 := N_1
  have ht : t.val < grid1.N := t.isLt
  have hr : r.val < 5000 := r.isLt
  have h : 5000 * t.val + r.val < 1000000 := by omega
  have hemb : ((cfg1.win 3).blk t).view.emb (ix2 r j) = ix2 ⟨5000 * t.val + r.val, h⟩ j := by
    obtain ⟨-, -, -, -, -, -, e0, e1⟩ := index_facts t
    funext a; apply Fin.ext
    match a with
    | ⟨0, _⟩ => show win1_3.index t (0 : Fin 2) * 5000 + 1 * r.val = 5000 * t.val + r.val; omega
    | ⟨1, _⟩ => show win1_3.index t (1 : Fin 2) * 256 + 1 * j.val = j.val; omega
  rw [hemb, scaledRows_apply, payload_apply, featsBlk_apply V c t r j h, wordsBlk_apply V c t r h]
  refine congrArg (featsArr V c (ix2 ⟨5000 * t.val + r.val, h⟩ j) * ·) (Finset.sum_congr rfl fun s _ => ?_)
  rw [tableBlk_apply]

/-- WHAT POINT `t` WRITES BACK is tile `t` of the scaled rows. -/
theorem flushed_eq (c : Dev nD) (t : Fin cfg1.N) :
    (dat1 V c).flushed 3 t = ((cfg1.win 3).blk t).view.read (Elt Ideal) (scaledRows (featsArr V c) (wordsArr V c) (tableArr V c)) := by
  show (cfg1.win 3).cut (grid1.coords t) ((dat1 V c).after 3 t) = _
  rw [after1_3, out1_3_eq]
  funext y
  exact tile_value V c t y

/-- An index of the output is in tile `t` iff each coordinate is in the tile's range on its axis. -/
theorem mem_tile (t : Fin cfg1.N) (i : S1000000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v36).slice (win1_3.rect t)).set ↔ _
  rw [View.set_slice_whole, Rect.mem_set_unit]
  exact Iff.rfl

/-- Row `n` lies in tile `n / 5000`, which is written back: the tiles cover the output. -/
theorem covered (i : S1000000x256.Idx) :
    ∃ t : Fin cfg1.N, (cfg1.win 3).flush t = true ∧ i ∈ ((cfg1.win 3).blk t).view.set := by
  have hN : grid1.N = 200 := N_1
  have hi0 : (i 0).val < 1000000 := (i 0).isLt
  have hi1 : (i 1).val < 256 := (i 1).isLt
  have hlt : (i 0).val / 5000 < grid1.N := by omega
  refine ⟨⟨(i 0).val / 5000, hlt⟩, flush1_3 _, ?_⟩
  rw [mem_tile]
  obtain ⟨-, -, -, -, -, -, e0, e1⟩ := index_facts ⟨(i 0).val / 5000, hlt⟩
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, hlt⟩ (1 : Fin 2) * 256 ≤ (i 1).val ∧ (i 1).val < win1_3.index ⟨(i 0).val / 5000, hlt⟩ (1 : Fin 2) * 256 + 256
    rw [e1]; omega

/-- THE OUTPUT after the region: the scaled rows. -/
theorem scaled_array (c : Dev nD) :
    (dat1 V c).arrAt 3 cfg1.N = scaledRows (featsArr V c) (wordsArr V c) (tableArr V c) :=
  (dat1 V c).arrAt_eq_of_cover 3 (scaledRows (featsArr V c) (wordsArr V c) (tableArr V c)) (fun t _ => flushed_eq V c t) covered

/-- THE RESULT, entry by entry: row `n` of `feats` times the one-hot combination of the table's column `j`. -/
theorem scale_result (c : Dev nD) (n : Fin 1000000) (j : Fin 256) :
    ((dat1 V c).arrAt 3 cfg1.N : FVec Ideal S1000000x256 .f32) (ix2 n j)
      = featsArr V c (ix2 n j) * ∑ s : Fin 128, Cert.Hand.hot (wordsArr V c (ix2 n 0)) s.val * tableArr V c (ix2 s j) := by
  rw [scaled_array]
  rfl

end Final

end Cert.KernelIdeal.Val

end
-- ==== Proof.LibScatter.lean ====
/-
  A scatter whose body returns the update, read at one operand index.

  `Host.scatter` is a left fold over the update indices in row-major order: each update index
  lands at one operand index or is dropped.  When the landing map is injective where it is
  defined, the order of the fold does not matter: the operand index an update lands at holds
  that update, and an operand index no update lands at keeps the operand's element.
-/
import Idealize.ShloMosaic.PureOps.ShapeOps

namespace Cert.Hand.LibScatter

open Idealize.ShloMosaic

/-! ## A fold of pointwise overwrites -/

section Fold
variable {ι κ α : Type}

/-- A left fold of a step that, at item `n`, leaves every entry `k` with `g n ≠ some k` as it
    was: an entry no item of the list lands at still holds its start value. -/
theorem foldl_step_miss (g : ι → Option κ) (step : (κ → α) → ι → κ → α)
    (hother : ∀ r n k, g n ≠ some k → step r n k = r k) (k : κ) :
    ∀ (l : List ι) (x : κ → α), (∀ n ∈ l, g n ≠ some k) → l.foldl step x k = x k
  | [], _, _ => rfl
  | a :: t, x, h => by
    rw [List.foldl_cons,
      foldl_step_miss g step hother k t (step x a) (fun n hn => h n (List.mem_cons_of_mem _ hn)),
      hother x a k (h a List.mem_cons_self)]

/-- A left fold of a step that, at item `n` with `g n = some k`, writes `v n` into entry `k` and
    leaves every other entry as it was, over a list in which at most one item lands at `k`:
    entry `k` ends as `v n` for the item `n` that lands there. -/
theorem foldl_step_hit (g : ι → Option κ) (v : ι → α) (step : (κ → α) → ι → κ → α)
    (hhit : ∀ r n k, g n = some k → step r n k = v n)
    (hother : ∀ r n k, g n ≠ some k → step r n k = r k) (k : κ) :
    ∀ (l : List ι) (x : κ → α), l.Nodup →
      (∀ n ∈ l, ∀ n' ∈ l, g n = some k → g n' = some k → n = n') →
      ∀ n ∈ l, g n = some k → l.foldl step x k = v n
  | [], _, _, _, n, hn, _ => absurd hn List.not_mem_nil
  | a :: t, x, hnd, hinj, n, hn, hg => by
    rw [List.foldl_cons]
    rcases List.mem_cons.1 hn with rfl | hnt
    · -- the first item lands at `k`; no later one does
      have hmiss : ∀ n' ∈ t, g n' ≠ some k := fun n' hn' h' => by
        have : n = n' := hinj n List.mem_cons_self n' (List.mem_cons_of_mem _ hn') hg h'
        subst this
        exact (List.nodup_cons.1 hnd).1 hn'
      rw [foldl_step_miss g step hother k t _ hmiss, hhit x n k hg]
    · exact foldl_step_hit g v step hhit hother k t (step x a) (List.nodup_cons.1 hnd).2
        (fun m hm m' hm' => hinj m (List.mem_cons_of_mem _ hm) m' (List.mem_cons_of_mem _ hm'))
        n hnt hg

end Fold

/-! ## `Host.scatter` with a body that returns the update -/

section Scatter
variable {α : Type} {s si u : Shape} {w : Nat}

/-- One step of the scatter's fold, at an update whose operand index is `i`: entry `i` becomes
    the update's element. -/
private theorem step_hit (d : ScatterDims s si u) (idx : IVec si w) (upd : u.Idx → α)
    (r : s.Idx → α) (n : Fin u.numel) (i : s.Idx)
    (h : d.resultIdx? (u.rowMajor.symm n) idx = some i) :
    (match d.resultIdx? (u.rowMajor.symm n) idx with
      | some i => fun i' => if i' = i then (fun _ b => b) (r i) (upd (u.rowMajor.symm n)) else r i'
      | none => r) i = upd (u.rowMajor.symm n) := by
  rw [h]
  exact if_pos rfl

/-- One step of the scatter's fold leaves alone every entry but the one the update lands at. -/
private theorem step_other (d : ScatterDims s si u) (idx : IVec si w) (upd : u.Idx → α)
    (r : s.Idx → α) (n : Fin u.numel) (k : s.Idx)
    (h : d.resultIdx? (u.rowMajor.symm n) idx ≠ some k) :
    (match d.resultIdx? (u.rowMajor.symm n) idx with
      | some i => fun i' => if i' = i then (fun _ b => b) (r i) (upd (u.rowMajor.symm n)) else r i'
      | none => r) k = r k := by
  cases hi : d.resultIdx? (u.rowMajor.symm n) idx with
  | none => rfl
  | some i =>
    have hne : k ≠ i := fun e => h (by rw [hi, e])
    exact if_neg hne

/-- A scatter whose body returns the update and whose update indices land at pairwise different
    operand indices: the operand index update `j` lands at holds `upd j`. -/
theorem scatter_set_of_hit (d : ScatterDims s si u) (x : s.Idx → α) (idx : IVec si w)
    (upd : u.Idx → α)
    (hinj : ∀ j j' i, d.resultIdx? j idx = some i → d.resultIdx? j' idx = some i → j = j')
    (j : u.Idx) (i : s.Idx) (hj : d.resultIdx? j idx = some i) :
    Host.scatter d (fun _ b => b) x idx upd i = upd j := by
  have hj' : d.resultIdx? (u.rowMajor.symm (u.rowMajor j)) idx = some i := by
    rw [Equiv.symm_apply_apply]; exact hj
  have h := foldl_step_hit (fun n => d.resultIdx? (u.rowMajor.symm n) idx)
    (fun n => upd (u.rowMajor.symm n)) _
    (fun r n k hk => step_hit d idx upd r n k hk)
    (fun r n k hk => step_other d idx upd r n k hk) i
    (List.finRange u.numel) x (List.nodup_finRange _)
    (fun n _ n' _ hn hn' => u.rowMajor.symm.injective (hinj _ _ i hn hn'))
    (u.rowMajor j) (List.mem_finRange _) hj'
  rw [Equiv.symm_apply_apply] at h
  exact h

/-- A scatter whose body returns the update: an operand index no update lands at keeps the
    operand's element. -/
theorem scatter_set_of_miss (d : ScatterDims s si u) (x : s.Idx → α) (idx : IVec si w)
    (upd : u.Idx → α) (i : s.Idx) (hi : ∀ j, d.resultIdx? j idx ≠ some i) :
    Host.scatter d (fun _ b => b) x idx upd i = x i :=
  foldl_step_miss (fun n => d.resultIdx? (u.rowMajor.symm n) idx) _
    (fun r n k hk => step_other d idx upd r n k hk) i
    (List.finRange u.numel) x (fun n _ => hi _)

end Scatter

end Cert.Hand.LibScatter
-- ==== Proof.Val.Host.lean ====
/-
  The host operations around the two regions, read as functions of the launch contents and of what the pooling
  region leaves.

  Between the regions the program adds the two partial sums, cuts the 32 segment rows, divides by the segment
  counts, runs the two dense layers with the rectifier between them and the logistic function at the end, and
  writes the 32 gate rows into a zero table of 128 rows.  Here each of these is a named function; the contents the
  scaling region is entered with are these functions applied to the pooling region's result and to the arguments;
  and the first and the last of them are read at an index.
-/
import proofs.«421135_j50921132261525_3_alg».proof.Proof.FrKernelIdeal.Run
import proofs.«421135_j50921132261525_3_alg».proof.Proof.LibScatter
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (c : Dev nD)

/-! ## The host operations between the two regions, as functions -/

/-- The two partial sums added and cut to the 32 segment rows: what the operations from `main_v2` to `main_v7`
    compute of the pooling region's result. -/
def halves (v1 : FVec Ideal S2x128x256 .f32) : FVec Ideal S32x256 .f32 :=
  extractStridedSlice S32x256 ![0, 0]
    (addf
      (shapeCast S128x256 (extractStridedSlice S1x128x256 ![0, 0, 0] v1 slices_S2x128x256_S1x128x256_0_0_0)
        shapeCasts_S1x128x256_S128x256)
      (shapeCast S128x256 (extractStridedSlice S1x128x256 ![1, 0, 0] v1 slices_S2x128x256_S1x128x256_1_0_0)
        shapeCasts_S1x128x256_S128x256))
    slices_S128x256_S32x256_0_0

/-- The first dense layer on the segment means: the counts by a scatter-add of ones, clamped below at one, the
    division, the product with the first weights plus the first bias (`main_v8` to `main_v20`). -/
def dense1 (seg : FVec Ideal S32x256 .f32) (x1 : IVec S1000000 32) (x2 : FVec Ideal S256x16 .f32)
    (x3 : FVec Ideal S16 .f32) : FVec Ideal S32x16 .f32 :=
  addf
    (Host.dotGeneral (F := Ideal) dot_S32x256_S256x16_S32x16_1_0_0_1_n_n none
      (Host.divf (F := Ideal) seg
        (broadcastInDim S32x256 ![0, 1] bcast_S32x1_S32x256_0_1
          (broadcastInDim S32x1 ![0] bcast_S32_S32x1_0
            (maximumf
              (Host.scatterAdd (F := Ideal) scatter_S32_S1000000x1_S1000000_n_0_0_1
                (broadcastInDim S32 ![] bcast_S_S32 (constant (F := Ideal) S_ .f32 0x00000000#32))
                (broadcastInDim S1000000x1 ![0] bcast_S1000000_S1000000x1_0 x1)
                (broadcastInDim S1000000 ![] bcast_S_S1000000 (constant (F := Ideal) S_ .f32 0x3F800000#32)))
              (broadcastInDim S32 ![] bcast_S_S32 (constant (F := Ideal) S_ .f32 0x3F800000#32))))))
      x2)
    (broadcastInDim S32x16 ![0, 1] bcast_S1x16_S32x16_0_1 (broadcastInDim S1x16 ![1] bcast_S16_S1x16_1 x3))

/-- The rectifier: the maximum with zero (`main_v21`). -/
def relu16 (h : FVec Ideal S32x16 .f32) : FVec Ideal S32x16 .f32 :=
  maximumf h (broadcastInDim S32x16 ![] bcast_S_S32x16 (constant (F := Ideal) S_ .f32 0x00000000#32))

/-- The second dense layer and the logistic function `1 / (1 + exp (-z))` (`main_v22` to `main_v31`). -/
def dense2 (r : FVec Ideal S32x16 .f32) (x4 : FVec Ideal S16x256 .f32) (x5 : FVec Ideal S256 .f32) :
    FVec Ideal S32x256 .f32 :=
  Host.divf (F := Ideal) (broadcastInDim S32x256 ![] bcast_S_S32x256 (constant (F := Ideal) S_ .f32 0x3F800000#32))
    (addf (broadcastInDim S32x256 ![] bcast_S_S32x256 (constant (F := Ideal) S_ .f32 0x3F800000#32))
      (Host.exp (F := Ideal)
        (Host.negf (F := Ideal)
          (addf
            (Host.dotGeneral (F := Ideal) dot_S32x16_S16x256_S32x256_1_0_0_1_n_n none r x4)
            (broadcastInDim S32x256 ![0, 1] bcast_S1x256_S32x256_0_1
              (broadcastInDim S1x256 ![1] bcast_S256_S1x256_1 x5))))))

/-- The gate of every segment from the segment sums: the chain from `main_v7` to `main_v31`, the operations nested in
    the program's order. -/
def gateK (seg : FVec Ideal S32x256 .f32) (x1 : IVec S1000000 32) (x2 : FVec Ideal S256x16 .f32)
    (x3 : FVec Ideal S16 .f32) (x4 : FVec Ideal S16x256 .f32) (x5 : FVec Ideal S256 .f32) :
    FVec Ideal S32x256 .f32 :=
  Host.divf (F := Ideal) (broadcastInDim S32x256 ![] bcast_S_S32x256 (constant (F := Ideal) S_ .f32 0x3F800000#32))
    (addf (broadcastInDim S32x256 ![] bcast_S_S32x256 (constant (F := Ideal) S_ .f32 0x3F800000#32))
      (Host.exp (F := Ideal)
        (Host.negf (F := Ideal)
          (addf
            (Host.dotGeneral (F := Ideal) dot_S32x16_S16x256_S32x256_1_0_0_1_n_n none
              (maximumf
                (addf
                  (Host.dotGeneral (F := Ideal) dot_S32x256_S256x16_S32x16_1_0_0_1_n_n none
                    (Host.divf (F := Ideal) seg
                      (broadcastInDim S32x256 ![0, 1] bcast_S32x1_S32x256_0_1
                        (broadcastInDim S32x1 ![0] bcast_S32_S32x1_0
                          (maximumf
                            (Host.scatterAdd (F := Ideal) scatter_S32_S1000000x1_S1000000_n_0_0_1
                              (broadcastInDim S32 ![] bcast_S_S32 (constant (F := Ideal) S_ .f32 0x00000000#32))
                              (broadcastInDim S1000000x1 ![0] bcast_S1000000_S1000000x1_0 x1)
                              (broadcastInDim S1000000 ![] bcast_S_S1000000
                                (constant (F := Ideal) S_ .f32 0x3F800000#32)))
                            (broadcastInDim S32 ![] bcast_S_S32 (constant (F := Ideal) S_ .f32 0x3F800000#32))))))
                    x2)
                  (broadcastInDim S32x16 ![0, 1] bcast_S1x16_S32x16_0_1
                    (broadcastInDim S1x16 ![1] bcast_S16_S1x16_1 x3)))
                (broadcastInDim S32x16 ![] bcast_S_S32x16 (constant (F := Ideal) S_ .f32 0x00000000#32)))
              x4)
            (broadcastInDim S32x256 ![0, 1] bcast_S1x256_S32x256_0_1
              (broadcastInDim S1x256 ![1] bcast_S256_S1x256_1 x5))))))

/-- The gate chain is its three stages composed. -/
theorem gateK_eq_stages (seg : FVec Ideal S32x256 .f32) (x1 : IVec S1000000 32) (x2 : FVec Ideal S256x16 .f32)
    (x3 : FVec Ideal S16 .f32) (x4 : FVec Ideal S16x256 .f32) (x5 : FVec Ideal S256 .f32) :
    gateK seg x1 x2 x3 x4 x5 = dense2 (relu16 (dense1 seg x1 x2 x3)) x4 x5 := rfl

/-- The 32 gate rows, rounded to the narrower format, written into rows 0 to 31 of a table of zeros
    (`main_v32` to `main_v35`). -/
def padOf (y : FVec Ideal S32x256 .f32) : FVec Ideal S128x256 .bf16 :=
  Host.scatter scatter_S128x256_S1_S32x256_01_n_0_0 (fun _ b => b)
    (broadcastInDim S128x256 ![] bcast_S_S128x256 (constant (F := Ideal) S_ .bf16 0x0000#16))
    (broadcastInDim S1 ![] bcast_S_S1 (constantI S_ 32 0#32))
    (truncf .bf16 y bitsLt_bf16_f32)

/-! ## Each stretch at any contents

  What a stretch leaves in its last buffer, as a function of the contents it starts from: the buffers it reads
  and does not write are read off the starting contents. -/

set_option maxHeartbeats 1000000 in
/-- The first stretch between the regions leaves the first dense layer's output in `main_v20`. -/
theorem stretch1 (W : Valuation τ sig (Elt Ideal)) :
    StableHlo.after hostOps1 W (Proc.devRef .tc main_v20)
      = dense1 (halves (W (Proc.devRef .tc main_v1))) (W (Proc.devRef .tc main_arg1)) (W (Proc.devRef .tc main_arg2))
          (W (Proc.devRef .tc main_arg3)) := by
  after_results_simp
  rfl

/-- The second stretch leaves the rectified layer in `main_v21`. -/
theorem stretch2 (W : Valuation τ sig (Elt Ideal)) :
    StableHlo.after hostOps1_1 W (Proc.devRef .tc main_v21) = relu16 (W (Proc.devRef .tc main_v20)) := by
  after_results
  rfl

/-- The third stretch leaves the padded gate table in `main_v35`. -/
theorem stretch3 (W : Valuation τ sig (Elt Ideal)) :
    StableHlo.after hostOps1_2 W (Proc.devRef .tc main_v35)
      = padOf (dense2 (W (Proc.devRef .tc main_v21)) (W (Proc.devRef .tc main_arg4)) (W (Proc.devRef .tc main_arg5))) := by
  after_results
  rfl

/-! ## What the regions are entered with -/

/-- The pooling region is entered with the features as launched. -/
theorem E1_arg0 : E1 m c main_arg0 = m ((c : Thread nD τ).loc main_arg0) :=
  (V1_of m c main_arg0 (by decide)).trans rfl

/-- The pooling region is entered with the segment ids as a column: row `n` holds the launch's word `n`. -/
theorem E1_words (n : Fin 1000000) :
    (E1 m c main_v0 : IVec S1000000x1 32) (ix2 n 0) = (m ((c : Thread nD τ).loc main_arg1) : IVec S1000000 32) (ix1 n) := by
  have e : (E1 m c main_v0 : IVec S1000000x1 32)
      = shapeCast S1000000x1 (m ((c : Thread nD τ).loc main_arg1) : IVec S1000000 32) shapeCasts_S1000000_S1000000x1 := by
    show StableHlo.after hostOps0 (fun b => m (c, b)) (Proc.devRef .tc main_v0) = _
    after_results
    rfl
  rw [e]
  refine shapeCast_apply (s := S1000000) (t := S1000000x1) _ _ (ix2 n 0) (ix1 n) ?_
  rw [Shape.rowMajor_val_two, Shape.rowMajor_val_one]
  show n.val = n.val * 1 + 0
  omega

/-- The scaling region is entered with the features as launched. -/
theorem E5_arg0 : E5 m c main_arg0 = m ((c : Thread nD τ).loc main_arg0) :=
  (V5_of m (outsA m) c main_arg0 (by decide)).trans <| (V4_of m (outsA m) c main_arg0 (by decide)).trans <|
    (V3_of m (outsA m) c main_arg0 (by decide)).trans <| (V2_of m (outsA m) c main_arg0 (by decide)).trans <|
    (V1_of m c main_arg0 (by decide)).trans rfl

/-- The scaling region is entered with the same column of segment ids as the pooling region. -/
theorem E5_words : E5 m c main_v0 = E1 m c main_v0 :=
  (V5_of m (outsA m) c main_v0 (by decide)).trans <| (V4_of m (outsA m) c main_v0 (by decide)).trans <|
    (V3_of m (outsA m) c main_v0 (by decide)).trans <| V2_of m (outsA m) c main_v0 (by decide)

/-- After the pooling region `main_v1` holds what that region leaves. -/
theorem V2A_v1 : V2 m (outsA m) c main_v1 = res0 m c := by
  show Function.update (V1 m c) main_v1 (outsA m 2 main_v1 c) main_v1 = _
  rw [Function.update_self, outsA_v1]

theorem V2A_arg1 : V2 m (outsA m) c main_arg1 = m ((c : Thread nD τ).loc main_arg1) :=
  (V2_of m (outsA m) c main_arg1 (by decide)).trans <| (V1_of m c main_arg1 (by decide)).trans rfl
theorem V2A_arg2 : V2 m (outsA m) c main_arg2 = m ((c : Thread nD τ).loc main_arg2) :=
  (V2_of m (outsA m) c main_arg2 (by decide)).trans <| (V1_of m c main_arg2 (by decide)).trans rfl
theorem V2A_arg3 : V2 m (outsA m) c main_arg3 = m ((c : Thread nD τ).loc main_arg3) :=
  (V2_of m (outsA m) c main_arg3 (by decide)).trans <| (V1_of m c main_arg3 (by decide)).trans rfl
theorem V4A_arg4 : V4 m (outsA m) c main_arg4 = m ((c : Thread nD τ).loc main_arg4) :=
  (V4_of m (outsA m) c main_arg4 (by decide)).trans <| (V3_of m (outsA m) c main_arg4 (by decide)).trans <|
    (V2_of m (outsA m) c main_arg4 (by decide)).trans <| (V1_of m c main_arg4 (by decide)).trans rfl
theorem V4A_arg5 : V4 m (outsA m) c main_arg5 = m ((c : Thread nD τ).loc main_arg5) :=
  (V4_of m (outsA m) c main_arg5 (by decide)).trans <| (V3_of m (outsA m) c main_arg5 (by decide)).trans <|
    (V2_of m (outsA m) c main_arg5 (by decide)).trans <| (V1_of m c main_arg5 (by decide)).trans rfl

/-- After the first stretch `main_v20` holds the first dense layer on the pooling region's result. -/
theorem V3A_v20 : V3 m (outsA m) c main_v20
    = dense1 (halves (res0 m c)) (m ((c : Thread nD τ).loc main_arg1)) (m ((c : Thread nD τ).loc main_arg2))
        (m ((c : Thread nD τ).loc main_arg3)) := by
  refine (stretch1 (V2 m (outsA m) c)).trans ?_
  rw [V2A_v1 m c, V2A_arg1 m c, V2A_arg2 m c, V2A_arg3 m c]

/-- After the second stretch `main_v21` holds it rectified. -/
theorem V4A_v21 : V4 m (outsA m) c main_v21
    = relu16 (dense1 (halves (res0 m c)) (m ((c : Thread nD τ).loc main_arg1)) (m ((c : Thread nD τ).loc main_arg2))
        (m ((c : Thread nD τ).loc main_arg3))) := by
  refine (stretch2 (V3 m (outsA m) c)).trans ?_
  rw [V3A_v20 m c]

/-- The scaling region is entered with the gate table: the gate chain on the pooling region's result and the
    arguments, padded. -/
theorem E5_gate : E5 m c main_v35
    = padOf (gateK (halves (res0 m c)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [gateK_eq_stages]
  refine (stretch3 (V4 m (outsA m) c)).trans ?_
  rw [V4A_v21 m c, V4A_arg4 m c, V4A_arg5 m c]

/-! ## The first and the last function at an index -/

/-- The segment sums at row `s`, column `j`: the two partial sums' entries added. -/
theorem halves_apply (v1 : FVec Ideal S2x128x256 .f32) (s : Fin 32) (j : Fin 256) :
    halves v1 (ix2 s j) = v1 (ix3 0 ⟨s.val, by omega⟩ j) + v1 (ix3 1 ⟨s.val, by omega⟩ j) := by
  unfold halves
  refine (slice2_axis0_apply 0 _ slices_S128x256_S32x256_0_0 s j (⟨s.val, by omega⟩ : Fin 128)
    (Nat.zero_add _).symm).trans ?_
  rw [addf_apply]
  congr 1
  · refine (shapeCast_1ab_ab_apply _ shapeCasts_S1x128x256_S128x256 _ _).trans ?_
    exact extractStridedSlice_apply _ v1 _ _ _ (fun a => by
      match a with
      | ⟨0, _⟩ => rfl
      | ⟨1, _⟩ => exact (Nat.zero_add _).symm
      | ⟨2, _⟩ => exact (Nat.zero_add _).symm)
  · refine (shapeCast_1ab_ab_apply _ shapeCasts_S1x128x256_S128x256 _ _).trans ?_
    exact extractStridedSlice_apply _ v1 _ _ _ (fun a => by
      match a with
      | ⟨0, _⟩ => rfl
      | ⟨1, _⟩ => exact (Nat.zero_add _).symm
      | ⟨2, _⟩ => exact (Nat.zero_add _).symm)

/-- The one scatter index of the padding: the word zero. -/
abbrev zeroIdx : IVec S1 32 := broadcastInDim S1 ![] bcast_S_S1 (constantI S_ 32 0#32)

/-- The window starts at zero on both axes. -/
theorem pad_start (j : S32x256.Idx) (a : Fin S128x256.rank) :
    scatter_S128x256_S1_S32x256_01_n_0_0.start j zeroIdx a = 0 := by
  unfold ScatterDims.start
  split
  · rfl
  · rfl

/-- Update index `(s, j)` lands at operand index `(s, j)`. -/
theorem pad_landing (s : Fin 32) (j : Fin 256) :
    scatter_S128x256_S1_S32x256_01_n_0_0.resultIdx? (ix2 s j) zeroIdx = some (ix2 ⟨s.val, by omega⟩ j) := by
  have h : ∀ a, 0 ≤ scatter_S128x256_S1_S32x256_01_n_0_0.start (ix2 s j) zeroIdx a
        + scatter_S128x256_S1_S32x256_01_n_0_0.window (ix2 s j) a
      ∧ scatter_S128x256_S1_S32x256_01_n_0_0.start (ix2 s j) zeroIdx a
        + scatter_S128x256_S1_S32x256_01_n_0_0.window (ix2 s j) a < S128x256.size a := by
    intro a
    rw [pad_start]
    match a with
    | ⟨0, _⟩ =>
      show 0 ≤ (0 : Int) + (s.val : Int) ∧ (0 : Int) + (s.val : Int) < (128 : Nat)
      omega
    | ⟨1, _⟩ =>
      show 0 ≤ (0 : Int) + (j.val : Int) ∧ (0 : Int) + (j.val : Int) < (256 : Nat)
      omega
  unfold ScatterDims.resultIdx?
  rw [dif_pos h]
  congr 1
  funext a
  match a with
  | ⟨0, h0⟩ =>
    refine Fin.ext ?_
    show ((scatter_S128x256_S1_S32x256_01_n_0_0.start (ix2 s j) zeroIdx ⟨0, h0⟩ : Int) + (s.val : Int)).toNat = s.val
    rw [pad_start]; omega
  | ⟨1, h1⟩ =>
    refine Fin.ext ?_
    show ((scatter_S128x256_S1_S32x256_01_n_0_0.start (ix2 s j) zeroIdx ⟨1, h1⟩ : Int) + (j.val : Int)).toNat = j.val
    rw [pad_start]; omega

/-- Two update indices that land at one operand index are equal. -/
theorem pad_landing_inj (j j' : S32x256.Idx) (i : S128x256.Idx)
    (h : scatter_S128x256_S1_S32x256_01_n_0_0.resultIdx? j zeroIdx = some i)
    (h' : scatter_S128x256_S1_S32x256_01_n_0_0.resultIdx? j' zeroIdx = some i) : j = j' := by
  obtain ⟨s, t, rfl⟩ : ∃ (s : Fin 32) (t : Fin 256), j = ix2 s t := ⟨j 0, j 1, eq_ix2 j⟩
  obtain ⟨s', t', rfl⟩ : ∃ (s' : Fin 32) (t' : Fin 256), j' = ix2 s' t' := ⟨j' 0, j' 1, eq_ix2 j'⟩
  rw [pad_landing] at h h'
  have e := Option.some.inj (h.trans h'.symm)
  have e0 : s.val = s'.val := congrArg (fun k : S128x256.Idx => (k 0).val) e
  have e1 : t.val = t'.val := congrArg (fun k : S128x256.Idx => (k 1).val) e
  have hs : s = s' := Fin.ext e0
  have ht : t = t' := Fin.ext e1
  rw [hs, ht]

/-- The padded table at row `s < 32`, column `j`: the gate's entry. -/
theorem padOf_apply (y : FVec Ideal S32x256 .f32) (s : Fin 32) (j : Fin 256) :
    padOf y (ix2 ⟨s.val, by omega⟩ j) = y (ix2 s j) := by
  unfold padOf
  rw [Cert.Hand.LibScatter.scatter_set_of_hit scatter_S128x256_S1_S32x256_01_n_0_0 _ zeroIdx _
    pad_landing_inj (ix2 s j) _ (pad_landing s j)]
  rfl

end Cert.KernelIdeal.Val
-- ==== Proof.RefValue.lean ====
/-
  The reference, read as mathematics.

  The reference computes three things in a row.  First the SEGMENT SUMS: a 32 x 256 table whose entry (s, j) adds up
  entry j of every row of `feats` whose segment word is s.  It is written as an accumulating scatter into a table of
  zeros: row n of `feats` is added to the table row its word names, and a row whose word names no table row is dropped.
  Second the GATE TABLE: the segment sums divided by the segment counts (clamped below at one), passed through two
  affine maps with a rectifier between them, and squashed by the logistic function.  Third the RESULT: row n of `feats`
  times the gate table's row named by row n's word; the word is first normalised (32 is added to a negative word) and
  then clamped into the table by the row lookup.

  This module proves, at the ideal instance,
    * `gate_eq`    the gate table is ONE function `gateOf` of the segment sums (and of the words and the weights);
    * `seg_eq`     the accumulating scatter is the sum over all rows of (row's one-hot weight for s) x (row's entry j);
    * `result_eq`  for words in [0, 32) the lookup reads the gate table at the word itself, so the result is each row
                   of `feats` scaled by its segment's row of the gate table.
-/
import proofs.«421135_j50921132261525_3_alg».proof.Proof.Gen.ReferenceIdeal.Read
import proofs.«421135_j50921132261525_3_alg».proof.Proof.Spec
import Idealize.ShloMosaic.PureOps.Ideal
import Idealize.ShloMosaic.PureOps.Ideal.Laws
import Idealize.ShloMosaic.Lib.ValueIdx

noncomputable section

namespace Cert.Hand.Ref

open Cert.ReferenceIdeal Cert.ReferenceIdeal.Gen Cert.ReferenceIdeal.Read Idealize.ShloMosaic Idealize.ShloMosaic.ValueIdx
open scoped BigOperators

/-! ## The gate table as a function of the segment sums -/

/-- The segment counts, clamped below at one and laid along the rows of a 32 x 256 table: entry (s, j) is
    max(number of rows whose word is s, 1), whatever j.  The count is itself an accumulating scatter, of a vector of ones
    into a vector of 32 zeros. -/
def clampedCounts (x1 : IVec S1000000 32) : FVec Ideal S32x256 .f32 :=
  broadcastInDim S32x256 ![0, 1] bcast_S32x1_S32x256_0_1
    (broadcastInDim S32x1 ![0] bcast_S32_S32x1_0
      (maximumf
        (Host.scatterAdd (F := Ideal) scatter_S32_S1000000x1_S1000000_n_0_0_1
          (broadcastInDim S32 ![] bcast_S_S32 (constant (F := Ideal) S_ .f32 0x00000000#32))
          (broadcastInDim S1000000x1 ![0] bcast_S1000000_S1000000x1_0 x1)
          (broadcastInDim S1000000 ![] bcast_S_S1000000 (constant (F := Ideal) S_ .f32 0x3F800000#32)))
        (broadcastInDim S32 ![] bcast_S_S32 (constant (F := Ideal) S_ .f32 0x3F800000#32))))

/-- The gate table from the segment sums `seg`: with `p = seg / clampedCounts` the segment means,
    `h = max(p · W1 + b1, 0)` and `z = h · W2 + b2`, the table is `1 / (1 + exp(−z))`, entry by entry
    (`x2 = W1`, `x3 = b1`, `x4 = W2`, `x5 = b2`; each bias is laid along the 32 rows). -/
def gateOf (seg : FVec Ideal S32x256 .f32) (x1 : IVec S1000000 32) (x2 : FVec Ideal S256x16 .f32)
    (x3 : FVec Ideal S16 .f32) (x4 : FVec Ideal S16x256 .f32) (x5 : FVec Ideal S256 .f32) : FVec Ideal S32x256 .f32 :=
  Host.divf (F := Ideal) (broadcastInDim S32x256 ![] bcast_S_S32x256 (constant (F := Ideal) S_ .f32 0x3F800000#32))
    (addf (broadcastInDim S32x256 ![] bcast_S_S32x256 (constant (F := Ideal) S_ .f32 0x3F800000#32))
      (Host.exp (F := Ideal) (Host.negf (F := Ideal) (addf
        (Host.dotGeneral (F := Ideal) dot_S32x16_S16x256_S32x256_1_0_0_1_n_n none
          (maximumf
            (addf
              (Host.dotGeneral (F := Ideal) dot_S32x256_S256x16_S32x16_1_0_0_1_n_n none
                (Host.divf (F := Ideal) seg (clampedCounts x1)) x2)
              (broadcastInDim S32x16 ![0, 1] bcast_S1x16_S32x16_0_1 (broadcastInDim S1x16 ![1] bcast_S16_S1x16_1 x3)))
            (broadcastInDim S32x16 ![] bcast_S_S32x16 (constant (F := Ideal) S_ .f32 0x00000000#32)))
          x4)
        (broadcastInDim S32x256 ![0, 1] bcast_S1x256_S32x256_0_1 (broadcastInDim S1x256 ![1] bcast_S256_S1x256_1 x5))))))

/-- The reference's gate table is `gateOf` of the reference's segment sums: the operations between the two are exactly
    the chain `gateOf` spells, and none of them reads `feats` except through the segment sums. -/
theorem gate_eq (x0 : FVec Ideal S1000000x256 .f32) (x1 : IVec S1000000 32) (x2 : FVec Ideal S256x16 .f32)
    (x3 : FVec Ideal S16 .f32) (x4 : FVec Ideal S16x256 .f32) (x5 : FVec Ideal S256 .f32) :
    val_main_v26 (F := Ideal) x0 x1 x2 x3 x4 x5 = gateOf (val_main_v2 (F := Ideal) x0 x1) x1 x2 x3 x4 x5 := rfl

/-! ## The accumulating scatter is the one-hot weighted sum -/

/-- The dimension numbers of the scatter of `feats` rows into the 32 x 256 table: the table's row axis is the scattered
    one (one word per update row), the column axis is the update's window. -/
abbrev scD := scatter_S32x256_S1000000x1_S1000000x256_1_0_0_1

/-- Row `n` of the one-column table the segment words are laid out as. -/
abbrev col (n : Fin 1000000) : S1000000x1.Idx := ix2 n (0 : Fin 1)

/-- Update element (n, c) reads its start index at row `n` of the one-column table of words. -/
theorem sc_siIdx (n : Fin 1000000) (c : Fin 256) (k : Fin scD.scatterDimsToOperandDims.length) :
    scD.siIdx (ix2 n c) k = col n := by
  funext b
  refine Fin.ext ?_
  match b with
  | ⟨0, _⟩ => rfl
  | ⟨1, _⟩ =>
    have hk : k.val = 0 := by have := k.isLt; change k.val < 1 at this; omega
    exact hk

/-- On the table's row axis the window of update element (n, c) starts at row n's word, read signed. -/
theorem sc_start0 (x1 : IVec S1000000 32) (n : Fin 1000000) (c : Fin 256) :
    scD.start (ix2 n c) (val_main_v1 (F := Ideal) x1) 0 = (x1 (ix1 n)).toInt := by
  unfold ScatterDims.start
  rw [dif_pos (show (0 : Fin S32x256.rank) ∈ scD.scatterDimsToOperandDims from List.mem_singleton.mpr rfl)]
  rw [sc_siIdx, val_main_v1_apply]
  congr 2
  funext a
  match a with
  | ⟨0, _⟩ => rfl

/-- On the column axis every window starts at 0: the words name rows only. -/
theorem sc_start1 (idx : IVec S1000000x1 32) (i : S1000000x256.Idx) : scD.start i idx 1 = 0 := by
  unfold ScatterDims.start
  rw [dif_neg (show ¬ (1 : Fin S32x256.rank) ∈ scD.scatterDimsToOperandDims by decide)]

/-- The row axis is not a window axis: the window coordinate there is 0. -/
theorem sc_window0 (i : S1000000x256.Idx) : scD.window i 0 = 0 := by
  unfold ScatterDims.window
  rw [dif_neg (show ¬ (0 : Fin S32x256.rank) ∈ scD.sKept by decide)]

/-- The column axis is the window axis: update element (n, c) sits at column c of its window. -/
theorem sc_window1 (n : Fin 1000000) (c : Fin 256) : scD.window (ix2 n c) 1 = c.val := by
  unfold ScatterDims.window
  rw [dif_pos (show (1 : Fin S32x256.rank) ∈ scD.sKept by decide)]
  rfl

/-- WHERE AN UPDATE LANDS.  Update element (n, c) lands on table entry (s, j) exactly when row n's word, read signed,
    is s and c is j.  (Its landing place is (word, c); it lands nowhere when the word is outside [0, 32), and then the
    right-hand side fails for every s too.) -/
theorem sc_resultIdx (x1 : IVec S1000000 32) (n : Fin 1000000) (c : Fin 256) (s : Fin 32) (j : Fin 256) :
    scD.resultIdx? (ix2 n c) (val_main_v1 (F := Ideal) x1) = some (ix2 s j)
      ↔ (x1 (ix1 n)).toInt = (s.val : ℤ) ∧ c = j := by
  unfold ScatterDims.resultIdx?
  split
  · rename_i h
    rw [Option.some.injEq]
    constructor
    · intro e
      have e0 : ((scD.start (ix2 n c) (val_main_v1 (F := Ideal) x1) 0 + (scD.window (ix2 n c) 0 : ℕ)).toNat) = s.val :=
        congrArg (fun f : S32x256.Idx => (f 0).val) e
      have e1 : ((scD.start (ix2 n c) (val_main_v1 (F := Ideal) x1) 1 + (scD.window (ix2 n c) 1 : ℕ)).toNat) = j.val :=
        congrArg (fun f : S32x256.Idx => (f 1).val) e
      have h0 := (h 0).1
      rw [sc_start0, sc_window0] at e0 h0
      rw [sc_start1, sc_window1] at e1
      refine ⟨by omega, Fin.ext (by omega)⟩
    · rintro ⟨hs, rfl⟩
      funext a
      refine Fin.ext ?_
      match a with
      | ⟨0, _⟩ =>
        show (scD.start (ix2 n c) (val_main_v1 (F := Ideal) x1) 0 + (scD.window (ix2 n c) 0 : ℕ)).toNat = s.val
        rw [sc_start0, sc_window0]; omega
      | ⟨1, _⟩ =>
        show (scD.start (ix2 n c) (val_main_v1 (F := Ideal) x1) 1 + (scD.window (ix2 n c) 1 : ℕ)).toNat = c.val
        rw [sc_start1, sc_window1]; omega
  · rename_i h
    refine ⟨fun e => absurd e (by simp), ?_⟩
    rintro ⟨hs, rfl⟩
    refine absurd (fun a => ?_) h
    match a with
    | ⟨0, _⟩ =>
      show 0 ≤ scD.start (ix2 n c) (val_main_v1 (F := Ideal) x1) 0 + (scD.window (ix2 n c) 0 : ℕ)
        ∧ scD.start (ix2 n c) (val_main_v1 (F := Ideal) x1) 0 + (scD.window (ix2 n c) 0 : ℕ) < (32 : ℕ)
      rw [sc_start0, sc_window0]
      have := s.isLt
      omega
    | ⟨1, _⟩ =>
      show 0 ≤ scD.start (ix2 n c) (val_main_v1 (F := Ideal) x1) 1 + (scD.window (ix2 n c) 1 : ℕ)
        ∧ scD.start (ix2 n c) (val_main_v1 (F := Ideal) x1) 1 + (scD.window (ix2 n c) 1 : ℕ) < (256 : ℕ)
      rw [sc_start1, sc_window1]
      have := c.isLt
      omega

/-- An accumulating scatter read at one entry of its result: the operand's entry plus the sum of the update elements that
    land on it. -/
theorem scatterAdd_apply {s si su : Shape} {φ : FTy} {w : Nat} (d : ScatterDims s si su) (x : FVec Ideal s φ) (idx : IVec si w)
    (upd : FVec Ideal su φ) (i : s.Idx) :
    Host.scatterAdd (F := Ideal) d x idx upd i
      = x i + ∑ u ∈ Finset.univ.filter (fun u => d.resultIdx? u idx = some i), upd u := rfl

/-- THE SEGMENT SUMS.  Entry (s, j) of the reference's scatter is 0 (the table it accumulates into) plus the sum of the
    entries (n, c) of `feats` that land on (s, j); by `sc_resultIdx` those are the entries (n, j) with word s, so the
    sum over all (n, c) collapses, column by column, to the sum over n of (1 if row n's word is s, else 0) times
    `feats (n, j)`. -/
theorem seg_eq (x0 : FVec Ideal S1000000x256 .f32) (x1 : IVec S1000000 32) :
    val_main_v2 (F := Ideal) x0 x1 = Cert.Hand.segSum x0 x1 := by
  funext i
  obtain ⟨s, j, rfl⟩ : ∃ (s : Fin 32) (j : Fin 256), i = ix2 s j := ⟨i 0, i 1, eq_ix2 i⟩
  rw [segSum_apply]
  unfold val_main_v2
  rw [scatterAdd_apply, val_main_v0_apply, val_main_cst_apply]
  refine (congrArg (· + _) Ideal.ofBits_zero_f32).trans ?_
  rw [zero_add, Finset.sum_filter, sum_idx2]
  refine Finset.sum_congr rfl fun n _ => ?_
  simp only [sc_resultIdx]
  by_cases hP : (x1 (ix1 n)).toInt = (s.val : ℤ)
  · simp only [hP, true_and]
    rw [Finset.sum_ite_eq', if_pos (Finset.mem_univ _), hot_of_eq hP, one_mul]
  · simp only [hP, false_and, if_false, Finset.sum_const_zero]
    rw [hot_of_ne hP, zero_mul]

/-! ## The row lookup reads the gate table at the word -/

/-- The dimension numbers of the lookup of gate-table rows: the table's row axis is indexed by the word and collapsed,
    its column axis is carried over whole as the result's column axis. -/
abbrev gaD := gather_S32x256_S1000000x1_S1000000x256_1_0_n_n_0_1_1256

/-- Result element (n, c) reads its start index at row `n` of the one-column table of words. -/
theorem ga_siIdx (n : Fin 1000000) (c : Fin 256) (k : Fin gaD.startIndexMap.length) :
    gaD.siIdx (ix2 n c) k = col n := by
  funext b
  refine Fin.ext ?_
  match b with
  | ⟨0, _⟩ => rfl
  | ⟨1, _⟩ =>
    have hk : k.val = 0 := by have := k.isLt; change k.val < 1 at this; omega
    exact hk

/-- On the table's row axis the slice of result element (n, c) starts at row n's word, read signed and clamped into
    [0, 31] (the slice is one row tall, the table has 32). -/
theorem ga_start0 (idx : IVec S1000000x1 32) (n : Fin 1000000) (c : Fin 256) :
    gaD.start (ix2 n c) idx 0 = min (idx (col n)).toInt.toNat 31 := by
  unfold GatherDims.start
  rw [dif_pos (show (0 : Fin S32x256.rank) ∈ gaD.startIndexMap from List.mem_singleton.mpr rfl), ga_siIdx]
  rfl

/-- On the column axis every slice starts at 0. -/
theorem ga_start1 (idx : IVec S1000000x1 32) (i : S1000000x256.Idx) : gaD.start i idx 1 = 0 := by
  unfold GatherDims.start
  rw [dif_neg (show ¬ (1 : Fin S32x256.rank) ∈ gaD.startIndexMap by decide)]

/-- The row axis is collapsed: no offset there. -/
theorem ga_off0 (i : S1000000x256.Idx) : gaD.offCoord i 0 = 0 :=
  GatherDims.offCoord_eq_zero _ _ _ (by decide)

/-- The column axis is the offset axis: result element (n, c) reads column c of its slice. -/
theorem ga_off1 (n : Fin 1000000) (c : Fin 256) : gaD.offCoord (ix2 n c) 1 = c.val := by
  unfold GatherDims.offCoord
  rw [dif_pos (show (1 : Fin S32x256.rank) ∈ gaD.sKept by decide)]
  rfl

/-- WHAT THE LOOKUP READS.  Result element (n, c) is the table's entry (clamp of row n's start word into [0, 31], c). -/
theorem ga_operandIdx (idx : IVec S1000000x1 32) (n : Fin 1000000) (c : Fin 256) :
    gaD.operandIdx (ix2 n c) idx = ix2 (⟨min (idx (col n)).toInt.toNat 31, by omega⟩ : Fin 32) c := by
  funext a
  refine Fin.ext ?_
  match a with
  | ⟨0, _⟩ =>
    show gaD.start (ix2 n c) idx 0 + gaD.batchCoord (ix2 n c) 0 + gaD.offCoord (ix2 n c) 0 = _
    rw [ga_start0, GatherDims.batchCoord_eq_zero _ _ _ List.not_mem_nil, ga_off0]
    rfl
  | ⟨1, _⟩ =>
    show gaD.start (ix2 n c) idx 1 + gaD.batchCoord (ix2 n c) 1 + gaD.offCoord (ix2 n c) 1 = _
    rw [ga_start1, GatherDims.batchCoord_eq_zero _ _ _ List.not_mem_nil, ga_off1]
    show 0 + 0 + c.val = c.val
    omega

/-- Normalising a word that is not negative changes nothing: "if b < 0 then b + 32 else b" is b. -/
theorem select_neg_of_nonneg (b : BitVec 32) (h0 : 0 ≤ b.toInt) :
    Scalar.select (IntOp.cmpi .slt b 0#32) (IntOp.addi b 32#32) b = b := by
  have hs : b.slt 0#32 = false := by
    simp only [BitVec.slt, BitVec.toInt_zero, decide_eq_false_iff_not, not_lt]
    exact h0
  have hc : IntOp.cmpi .slt b 0#32 = 0#1 := by
    show BitVec.ofBool (b.slt 0#32) = 0#1
    rw [hs]; rfl
  rw [hc, select_zero]

/-- For words in range, the start word the lookup is given at row n is row n's word itself. -/
theorem normalised_word (x1 : IVec S1000000 32) (h : Cert.Hand.InRange x1) (n : Fin 1000000) :
    val_main_v32 (F := Ideal) x1 (col n) = x1 (ix1 n) := by
  have e : idx_main_v32 (col n) = ix1 n := funext fun a => by match a with | ⟨0, _⟩ => rfl
  rw [val_main_v32_apply, e, val_main_v31_apply, val_main_v28_apply, val_main_v27_apply, val_main_c_apply,
    val_main_v30_apply, val_main_v29_apply, val_main_c_5_apply]
  exact select_neg_of_nonneg _ (h n).1

/-- THE RESULT.  For words in [0, 32), entry (n, j) of the reference's result is `feats (n, j)` times the gate table's
    entry (row n's segment, j): the lookup reads the table at the clamp of the normalised word, the normalised word is
    the word (it is not negative), and the clamp of a word below 32 into [0, 31] is the word. -/
theorem result_eq (x0 : FVec Ideal S1000000x256 .f32) (x1 : IVec S1000000 32) (x2 : FVec Ideal S256x16 .f32)
    (x3 : FVec Ideal S16 .f32) (x4 : FVec Ideal S16x256 .f32) (x5 : FVec Ideal S256 .f32) (h : Cert.Hand.InRange x1) :
    val_main_v34 (F := Ideal) x0 x1 x2 x3 x4 x5
      = Cert.Hand.scaled (val_main_v26 (F := Ideal) x0 x1 x2 x3 x4 x5) x0 x1 := by
  funext i
  obtain ⟨n, j, rfl⟩ : ∃ (n : Fin 1000000) (j : Fin 256), i = ix2 n j := ⟨i 0, i 1, eq_ix2 i⟩
  rw [scaled_apply, val_main_v34_apply]
  unfold val_main_v33
  generalize val_main_v26 (F := Ideal) x0 x1 x2 x3 x4 x5 = y
  show x0 (ix2 n j) * y (gaD.operandIdx (ix2 n j) (val_main_v32 (F := Ideal) x1)) = _
  rw [ga_operandIdx]
  congr 2
  refine congrArg (fun a => ix2 a j) (Fin.ext ?_)
  obtain ⟨h0, h1⟩ := h n
  show min (val_main_v32 (F := Ideal) x1 (col n)).toInt.toNat 31 = (x1 (ix1 n)).toInt.toNat % 32
  rw [normalised_word x1 h n]
  omega

end Cert.Hand.Ref

end
-- ==== Proof.Sums.lean ====
/-
  Two facts about finite sums used to join the two sides.

  * A sum over the 1000000 rows is the sum over the 2 halves, the 100 tiles of a half and the 5000 rows of a tile, row
    `5000 * (100 * h + t) + r` being row `r` of tile `t` of half `h`.
  * A sum of one-hot weights against a table collapses to the table's entry at the word, when the word is in range.
-/
import Mathlib.Algebra.BigOperators.Fin
import Mathlib.Logic.Equiv.Fin.Basic
import proofs.«421135_j50921132261525_3_alg».proof.Proof.Spec

noncomputable section

namespace Cert.Hand

open Idealize.ShloMosaic

/-- A sum over `Fin (a * b)` as a double sum, entry `b * i + j` being entry `j` of block `i`. -/
theorem sum_fin_mul {M : Type*} [AddCommMonoid M] (a b : ℕ) (f : Fin (a * b) → M) :
    ∑ n, f n = ∑ i : Fin a, ∑ j : Fin b, f ⟨b * i.val + j.val, by
      have hi := i.isLt; have hj := j.isLt
      calc b * i.val + j.val < b * i.val + b := by omega
        _ = b * (i.val + 1) := by ring
        _ ≤ b * a := Nat.mul_le_mul_left _ hi
        _ = a * b := Nat.mul_comm _ _⟩ := by
  rw [← finProdFinEquiv.sum_comp, Fintype.sum_prod_type]
  refine Finset.sum_congr rfl fun i _ => Finset.sum_congr rfl fun j _ => congrArg f (Fin.ext ?_)
  simp only [finProdFinEquiv_apply_val]
  omega

/-- The rows as halves, tiles and rows of a tile. -/
theorem sum_rows {M : Type*} [AddCommMonoid M] (f : Fin 1000000 → M) :
    ∑ n, f n = ∑ h : Fin 2, ∑ t : Fin 100, ∑ r : Fin 5000,
      f ⟨5000 * (100 * h.val + t.val) + r.val, by have := h.isLt; have := t.isLt; have := r.isLt; omega⟩ := by
  have h1 := sum_fin_mul 200 5000 (fun n : Fin (200 * 5000) => f ⟨n.val, n.isLt⟩)
  have h2 : ∀ g : Fin 200 → M, ∑ i, g i = ∑ h : Fin 2, ∑ t : Fin 100, g ⟨100 * h.val + t.val, by have := h.isLt; have := t.isLt; omega⟩ :=
    fun g => sum_fin_mul 2 100 (fun n : Fin (2 * 100) => g ⟨n.val, n.isLt⟩)
  calc ∑ n, f n = ∑ n : Fin (200 * 5000), f ⟨n.val, n.isLt⟩ := rfl
    _ = ∑ i : Fin 200, ∑ j : Fin 5000, f ⟨5000 * i.val + j.val, by have := i.isLt; have := j.isLt; omega⟩ := h1
    _ = _ := h2 _

/-- One-hot weights against a table of 128 entries: only the word's own entry survives. -/
theorem sum_hot (b : BitVec 32) (h0 : 0 ≤ b.toInt) (h1 : b.toInt < 128) (g : Fin 128 → EReal) :
    ∑ s : Fin 128, hot b s.val * g s = g ⟨b.toInt.toNat, by omega⟩ := by
  rw [Finset.sum_eq_single (⟨b.toInt.toNat, by omega⟩ : Fin 128)]
  · rw [hot_of_eq (by simp only []; omega), one_mul]
  · intro s _ hs
    rw [hot_of_ne (fun e => hs (Fin.ext (by simp only []; omega))), zero_mul]
  · intro hn; exact absurd (Finset.mem_univ _) hn

end Cert.Hand

end
-- ==== Proof.GateSame.lean ====
/-
  The kernel's gate chain is the reference's, operation for operation: the two programs print the same dimension records
  (contraction axes of the two dense layers, the counting scatter), and the chain reads the rows only through the segment
  sums, so the two functions of the segment sums are the same function.
-/
import proofs.«421135_j50921132261525_3_alg».proof.Proof.Val.Host
import proofs.«421135_j50921132261525_3_alg».proof.Proof.RefValue

noncomputable section

namespace Cert.KernelIdeal.Val

open Cert.KernelIdeal Cert.KernelIdeal.Gen Idealize.ShloMosaic

set_option maxHeartbeats 1000000 in
theorem gate_records (seg : FVec Ideal S32x256 .f32) (x1 : IVec S1000000 32) (x2 : FVec Ideal S256x16 .f32)
    (x3 : FVec Ideal S16 .f32) (x4 : FVec Ideal S16x256 .f32) (x5 : FVec Ideal S256 .f32) :
    gateK seg x1 x2 x3 x4 x5 = Cert.Hand.Ref.gateOf seg x1 x2 x3 x4 x5 := rfl

end Cert.KernelIdeal.Val

end
-- ==== Proof.Bridge.lean ====
/-
  The two sides are one function.

  The kernel's result is `feats` scaled row by row by a one-hot sum over the 128 rows of the zero-padded gate table; for a
  segment word in `[0, 32)` that sum is the table's row at the word, which is the gate's row.  The gate is the same chain of
  operations in both programs, applied to the segment sums; the kernel's segment sums are its two halves' accumulated one-hot
  products added, i.e. the sum over all rows of the row's weight times the row, which is what the reference's accumulating
  scatter computes.  So the kernel's result is the reference's.
-/
import proofs.«421135_j50921132261525_3_alg».proof.Proof.Val.Pool
import proofs.«421135_j50921132261525_3_alg».proof.Proof.Val.Scale
import proofs.«421135_j50921132261525_3_alg».proof.Proof.Val.Host
import proofs.«421135_j50921132261525_3_alg».proof.Proof.RefValue
import proofs.«421135_j50921132261525_3_alg».proof.Proof.Sums
import proofs.«421135_j50921132261525_3_alg».proof.Proof.GateSame

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Hand

variable (m : (ℓ : Loc nD τ sig) → Buf (Elt Ideal) ℓ) (c : Dev nD)

/-- The launch contents of the rows and of the segment words. -/
abbrev featsOf : FVec Ideal SFeats .f32 := m ((c : Thread nD τ).loc main_arg0)
abbrev wordsOf : IVec SRows 32 := m ((c : Thread nD τ).loc main_arg1)

/-- What the pooling region leaves, read at an entry: the sum over the half's tiles and the tile's rows of the row's
    weight for the segment times the row's entry (the pooling region's value, at the contents it is entered with). -/
theorem res0_apply (h : Fin 2) (s : Fin 128) (j : Fin 256) :
    (res0 m c : FVec Ideal S2x128x256 .f32) (ix3 h s j)
      = ∑ t : Fin 100, ∑ r : Fin 5000, Cert.Hand.hot ((E1 m c main_v0 : IVec S1000000x1 32) (ix2 ⟨5000 * (100 * h.val + t.val) + r.val, by have := h.isLt; have := t.isLt; have := r.isLt; omega⟩ 0)) s.val * (E1 m c main_arg0 : FVec Ideal S1000000x256 .f32) (ix2 ⟨5000 * (100 * h.val + t.val) + r.val, by have := h.isLt; have := t.isLt; have := r.isLt; omega⟩ j) :=
  pool_result (E1 m) c h s j

set_option maxHeartbeats 400000 in
/-- The kernel's segment sums: the two halves' accumulators, each the sum over the half's tiles and the tile's rows of the
    row's weight times the row, add up to the sum over all rows. -/
theorem seg_kernel : halves (res0 m c) = segSum (featsOf m c) (wordsOf m c) := by
  funext i
  obtain ⟨s, j, rfl⟩ : ∃ (s : Fin 32) (j : Fin 256), i = ix2 s j := ⟨i 0, i 1, eq_ix2 i⟩
  rw [halves_apply (res0 m c) s j, res0_apply m c 0 ⟨s.val, by omega⟩ j, res0_apply m c 1 ⟨s.val, by omega⟩ j, segSum_apply, sum_rows, Fin.sum_univ_two]
  refine congrArg₂ (fun a b : EReal => a + b) ?_ ?_
  · refine Finset.sum_congr rfl fun t _ => Finset.sum_congr rfl fun r _ => ?_
    rw [E1_words m c _, E1_arg0 m c]
  · refine Finset.sum_congr rfl fun t _ => Finset.sum_congr rfl fun r _ => ?_
    rw [E1_words m c _, E1_arg0 m c]

/-- THE KERNEL'S RESULT is the reference's, on segment words in range. -/
theorem kernel_result (h : InRange (wordsOf m c)) :
    res1 m c = Cert.ReferenceIdeal.Read.val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  rw [Cert.Hand.Ref.result_eq _ _ _ _ _ _ h, Cert.Hand.Ref.gate_eq, Cert.Hand.Ref.seg_eq]
  funext i
  obtain ⟨n, j, rfl⟩ : ∃ (n : Fin 1000000) (j : Fin 256), i = ix2 n j := ⟨i 0, i 1, eq_ix2 i⟩
  rw [scaled_apply]
  unfold res1
  rw [scale_result (E5 m) c n j]
  have e0 : featsArr (E5 m) c = featsOf m c := E5_arg0 m c
  have e1 : wordsArr (E5 m) c (ix2 n 0) = wordsOf m c (ix1 n) := by
    show (E5 m c main_v0 : IVec S1000000x1 32) (ix2 n 0) = _
    rw [E5_words m c]; exact E1_words m c n
  have e2 : tableArr (E5 m) c = padOf (gateK (halves (res0 m c)) (m ((c : Thread nD τ).loc main_arg1)) (m ((c : Thread nD τ).loc main_arg2))
      (m ((c : Thread nD τ).loc main_arg3)) (m ((c : Thread nD τ).loc main_arg4)) (m ((c : Thread nD τ).loc main_arg5))) := E5_gate m c
  rw [e0, e1, e2]
  have hn := h n
  rw [sum_hot _ hn.1 (lt_trans hn.2 (by decide))]
  have hrow : (⟨((wordsOf m c) (ix1 n)).toInt.toNat, by have := hn.1; have := hn.2; omega⟩ : Fin 128)
      = ⟨(segOf (wordsOf m c) n).val, by have := (segOf (wordsOf m c) n).isLt; omega⟩ :=
    Fin.ext (by have := segOf_val h n; have := hn.1; show ((wordsOf m c) (ix1 n)).toInt.toNat = (segOf (wordsOf m c) n).val; omega)
  rw [hrow, padOf_apply, seg_kernel m c, gate_records]

end Cert.KernelIdeal.Val

end
-- ==== Proof.PreRange.lean ====
/-
  From the printed precondition to the range of the segment words.

  The precondition is a conjunction of "all" reductions.  Its last two conjuncts say that every one of the 1000000
  segment words, compared signed, is at least 0 and less than 32.  A conjunction of one-bit words is 1 exactly when
  both are; an "all" over an array is 1 only if every entry is 1; and a signed comparison word is 1 exactly when the
  signed readings compare so.  Together: every word, read signed, lies in [0, 32).
-/
import proofs.«421135_j50921132261525_3_alg».proof.Pre_finite_inputs
import proofs.«421135_j50921132261525_3_alg».proof.Proof.Spec
import Idealize.ShloMosaic.Lib.ReduceAll
import Idealize.ShloMosaic.Lib.ValueIdx

namespace Cert.Hand.Pre

open Idealize.ShloMosaic Idealize.ShloMosaic.ValueIdx

/-- The shape with no axes has exactly one index. -/
instance : Subsingleton Cert.Pre_finite_inputs.S_.Idx := ⟨fun a b => funext fun d => d.elim0⟩

/-- Under the printed precondition every segment word, read signed, is at least 0 and less than 32.

    The precondition's value is a nested conjunction `((… ∧ A) ∧ B)` in which `A` is the "all" of the entrywise test
    `0 ≤ word` and `B` the "all" of the entrywise test `word < 32`, both signed.  The conjunction being 1 gives `A = 1`
    and `B = 1`; an "all" being 1 gives the test at every row `n`; the test at row `n` compares the word with the
    constant, whose signed reading is 0, respectively 32. -/
theorem inRange_of_pre {F : FTy → Type} [FloatOps F] [Cert.Pre_finite_inputs.Facts]
    (x0 : FVec F Cert.Pre_finite_inputs.S1000000x256 .f32) (x1 : IVec Cert.Pre_finite_inputs.S1000000 32)
    (x2 : FVec F Cert.Pre_finite_inputs.S256x16 .f32) (x3 : FVec F Cert.Pre_finite_inputs.S16 .f32)
    (x4 : FVec F Cert.Pre_finite_inputs.S16x256 .f32) (x5 : FVec F Cert.Pre_finite_inputs.S256 .f32)
    (h : Cert.Pre_finite_inputs.fn (F := F) x0 x1 x2 x3 x4 x5 = fun _ => 1#1) : Cert.Hand.InRange x1 := by
  have h0 := congrFun h ValueIdx.ix0
  dsimp only [Cert.Pre_finite_inputs.fn, Cert.Pre_finite_inputs.fn_part1] at h0
  -- the outer conjunction: (everything before) ∧ all (word < 32)
  obtain ⟨h27, hlt⟩ := IntOp.andi_eq_one.1 h0
  -- the next one in: (everything before) ∧ all (0 ≤ word)
  obtain ⟨-, hge⟩ := IntOp.andi_eq_one.1 h27
  intro n
  have a := Host.reduce_andi_all _ _ _ _ _ hge (ix1 n)
  have b := Host.reduce_andi_all _ _ _ _ _ hlt (ix1 n)
  -- at row n the tests are the signed comparisons of the word with the constants 0 and 32
  have a' : (0#32 : BitVec 32).toInt ≤ (x1 (ix1 n)).toInt := IntOp.cmpi_sge.1 a
  have b' : (x1 (ix1 n)).toInt < (32#32 : BitVec 32).toInt := IntOp.cmpi_slt.1 b
  exact ⟨a', b'⟩

end Cert.Hand.Pre
-- ==== Proof.lean ====
/- The proof of `Cert.Claim`: the pooled-gate kernel (two grid regions: a one-hot pooling pass accumulating segment sums
   tile by tile, and a scaling pass multiplying each row by its segment's gate row) against the reference
   (`segment_sum`, a two-layer gate, `feats * y[batch_idx]`), over the extended reals, on inputs whose segment words lie in
   `[0, 32)`.

   * The three frames: each program runs to the end and leaves its arguments unchanged (the kernel's two readings by the run
     of FrKernel / FrKernelIdeal; the reference's by its run with the result dropped).
   * `preserves`: the idealization rewrote nothing.
   * `algebraic`: both results are `feats` scaled row by row by the gate row of the row's segment, the gate table computed
     from the same segment sums (Bridge). -/
import proofs.«421135_j50921132261525_3_alg».proof.Defs
import proofs.«421135_j50921132261525_3_alg».proof.Proof.Gen.Kernel
import proofs.«421135_j50921132261525_3_alg».proof.Proof.Gen.KernelIdeal
import proofs.«421135_j50921132261525_3_alg».proof.Proof.Gen.ReferenceIdeal
import proofs.«421135_j50921132261525_3_alg».proof.Proof.Gen.Pre_finite_inputs
import proofs.«421135_j50921132261525_3_alg».proof.Proof.Gen.ReferenceIdeal.Run
import proofs.«421135_j50921132261525_3_alg».proof.Proof.Gen.ReferenceIdeal.Read
import proofs.«421135_j50921132261525_3_alg».proof.Proof.FrKernel.Run
import proofs.«421135_j50921132261525_3_alg».proof.Proof.FrKernelIdeal.Run
import proofs.«421135_j50921132261525_3_alg».proof.Proof.Bridge
import proofs.«421135_j50921132261525_3_alg».proof.Proof.PreRange
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run to the end with the same result: the kernel's is
    what its scaling region leaves, the reference's is its run's term, and on segment words in `[0, 32)` (the precondition's
    last two conjuncts) the two are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.res1 m c, Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v34_eq _ _ _ _ _ _).trans
    (Cert.KernelIdeal.Val.kernel_result m c (Cert.Hand.Pre.inRange_of_pre _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
